-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S640000 : Shape := ⟨1, ![640000]⟩
abbrev S640000x64 : Shape := ⟨2, ![640000, 64]⟩
abbrev S20000 : Shape := ⟨1, ![20000]⟩
abbrev S2x39996 : Shape := ⟨2, ![2, 39996]⟩
abbrev S128x128 : Shape := ⟨2, ![128, 128]⟩
abbrev S64x128 : Shape := ⟨2, ![64, 128]⟩
abbrev S128 : Shape := ⟨1, ![128]⟩
abbrev S3x128 : Shape := ⟨2, ![3, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x64 : S_.BroadcastsInDim S640000x64 (![] : Fin 0 → Fin S640000x64.rank)
  reducesTo_S640000x64_S_d0_1 : S640000x64.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S128 .f32) (main_arg11 : FVec F S3x128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S64x128 .f32) (main_arg8 : FVec F S128 .f32) (main_arg9 : FVec F S128x128 .f32) (main_arg10 : FVec F S128 .f32) (main_arg11 : FVec F S3x128 .f32) (main_arg12 : FVec F S128x128 .f32) (main_arg13 : FVec F S128 .f32) (main_arg14 : FVec F S128x128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg7
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S20000x128 .f32) (main_arg1 : IVec S2x640000 32) (main_arg2 : FVec F S640000 .f32) (main_arg3 : FVec F S640000x64 .f32) (main_arg4 : IVec S20000 32) (main_arg5 : IVec S2x39996 32) (main_arg6 : FVec F S128x128 .f32) (main_arg7 : FVec F S64x128 .f32) (main_arg8 : FVec F S128 .f32) (main_arg9 : FVec F S128x128 .f32) (main_arg10 : FVec F S128 .f32) (main_arg11 : FVec F S3x128 .f32) (main_arg12 : FVec F S128x128 .f32) (main_arg13 : FVec F S128 .f32) (main_arg14 : FVec F S128x128 .f32) (main_arg15 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x64 .f32 := Host.absf main_arg3
  let main_cst_2 : FVec F S_ .f32 := constant S_ .f32 0x7F800000#32
  let main_v10 : FVec F S640000x64 .f32 := broadcastInDim S640000x64 ![] bcast_S_S640000x64 main_cst_2
  let main_v11 : IVec S640000x64 1 := cmpf .olt main_v9 main_v10
  let main_c_3 : IVec S_ 1 := constantI S_ 1 1#1
  let main_v12 : IVec S_ 1 := (fun x v => Host.reduce IntOp.andi x v reducesTo_S640000x64_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S20000x128 : Shape := ⟨2, ![20000, 128]⟩
abbrev S2x640000 : Shape := ⟨2, ![2, 640000]⟩
abbrev S640000 : Shape := ⟨1, ![640000]⟩
abbrev S640000x64 : Shape := ⟨2, ![640000, 64]⟩
abbrev S20000 : Shape := ⟨1, ![20000]⟩
abbrev S2x39996 : Shape := ⟨2, ![2, 39996]⟩
abbrev S128x128 : Shape := ⟨2, ![128, 128]⟩
abbrev S64x128 : Shape := ⟨2, ![64, 128]⟩
abbrev S128 : Shape := ⟨1, ![128]⟩
abbrev S3x128 : Shape := ⟨2, ![3, 128]⟩
abbrev S2000x128 : Shape := ⟨2, ![2000, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5120x64 : Shape := ⟨2, ![5120, 64]⟩
abbrev S5120x1 : Shape := ⟨2, ![5120, 1]⟩
abbrev S5120x128 : Shape := ⟨2, ![5120, 128]⟩
abbrev S1x39996 : Shape := ⟨2, ![1, 39996]⟩
abbrev S39996 : Shape := ⟨1, ![39996]⟩
abbrev S39996x1 : Shape := ⟨2, ![39996, 1]⟩
abbrev S39996x128 : Shape := ⟨2, ![39996, 128]⟩
abbrev S20000x1 : Shape := ⟨2, ![20000, 1]⟩

abbrev nBuf : Space → Nat
  | .hbm => 101
  | .vmem => 25
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000, .f32⟩
  | .hbm, ⟨3, _⟩ => ⟨S640000x64, .f32⟩
  | .hbm, ⟨4, _⟩ => ⟨S20000, .i32⟩
  | .hbm, ⟨5, _⟩ => ⟨S2x39996, .i32⟩
  | .hbm, ⟨6, _⟩ => ⟨S128x128, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S3x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S20000x128, .f32⟩
  | .hbm, ⟨17, _⟩ => ⟨S1x640000, .i32⟩
  | .hbm, ⟨18, _⟩ => ⟨S640000, .i32⟩
  | .hbm, ⟨19, _⟩ => ⟨S1x640000, .i32⟩
  | .hbm, ⟨20, _⟩ => ⟨S640000, .i32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x1, .f32⟩
  | .hbm, ⟨31, _⟩ => ⟨S1x128, .f32⟩
  | .hbm, ⟨32, _⟩ => ⟨S1x128, .f32⟩
  | .hbm, ⟨33, _⟩ => ⟨S640000x128, .f32⟩
  | .hbm, ⟨34, _⟩ => ⟨S_, .f32⟩
  | .hbm, ⟨35, _⟩ => ⟨S20000x128, .f32⟩
  | .hbm, ⟨36, _⟩ => ⟨S640000x1, .i32⟩
  | .hbm, ⟨37, _⟩ => ⟨S20000x128, .f32⟩
  | .hbm, ⟨38, _⟩ => ⟨S1x39996, .i32⟩
  | .hbm, ⟨39, _⟩ => ⟨S39996, .i32⟩
  | .hbm, ⟨40, _⟩ => ⟨S_, .i32⟩
  | .hbm, ⟨41, _⟩ => ⟨S39996, .i32⟩
  | .hbm, ⟨42, _⟩ => ⟨S39996, .i1⟩
  | .hbm, ⟨43, _⟩ => ⟨S_, .i32⟩
  | .hbm, ⟨44, _⟩ => ⟨S39996, .i32⟩
  | .hbm, ⟨45, _⟩ => ⟨S39996, .i32⟩
  | .hbm, ⟨46, _⟩ => ⟨S39996, .i32⟩
  | .hbm, ⟨47, _⟩ => ⟨S39996x1, .i32⟩
  | .hbm, ⟨48, _⟩ => ⟨S39996, .i32⟩
  | .hbm, ⟨49, _⟩ => ⟨S_, .i32⟩
  | .hbm, ⟨50, _⟩ => ⟨S39996, .i32⟩
  | .hbm, ⟨51, _⟩ => ⟨S39996, .i1⟩
  | .hbm, ⟨52, _⟩ => ⟨S_, .i32⟩
  | .hbm, ⟨53, _⟩ => ⟨S39996, .i32⟩
  | .hbm, ⟨54, _⟩ => ⟨S39996, .i32⟩
  | .hbm, ⟨55, _⟩ => ⟨S39996, .i32⟩
  | .hbm, ⟨56, _⟩ => ⟨S39996x1, .i32⟩
  | .hbm, ⟨57, _⟩ => ⟨S39996x128, .f32⟩
  | .hbm, ⟨58, _⟩ => ⟨S1x39996, .i32⟩
  | .hbm, ⟨59, _⟩ => ⟨S39996, .i32⟩
  | .hbm, ⟨60, _⟩ => ⟨S1x39996, .i32⟩
  | .hbm, ⟨61, _⟩ => ⟨S39996, .i32⟩
  | .hbm, ⟨62, _⟩ => ⟨S39996, .i32⟩
  | .hbm, ⟨63, _⟩ => ⟨S_, .i32⟩
  | .hbm, ⟨64, _⟩ => ⟨S39996, .i32⟩
  | .hbm, ⟨65, _⟩ => ⟨S39996, .i32⟩
  | .hbm, ⟨66, _⟩ => ⟨S_, .i32⟩
  | .hbm, ⟨67, _⟩ => ⟨S39996, .i32⟩
  | .hbm, ⟨68, _⟩ => ⟨S39996, .i1⟩
  | .hbm, ⟨69, _⟩ => ⟨S_, .i32⟩
  | .hbm, ⟨70, _⟩ => ⟨S39996, .i32⟩
  | .hbm, ⟨71, _⟩ => ⟨S39996, .i32⟩
  | .hbm, ⟨72, _⟩ => ⟨S39996, .i32⟩
  | .hbm, ⟨73, _⟩ => ⟨S39996x1, .i32⟩
  | .hbm, ⟨74, _⟩ => ⟨S39996x128, .f32⟩
  | .hbm, ⟨75, _⟩ => ⟨S39996x128, .f32⟩
  | .hbm, ⟨76, _⟩ => ⟨S1x39996, .i32⟩
  | .hbm, ⟨77, _⟩ => ⟨S39996, .i32⟩
  | .hbm, ⟨78, _⟩ => ⟨S_, .f32⟩
  | .hbm, ⟨79, _⟩ => ⟨S20000x128, .f32⟩
  | .hbm, ⟨80, _⟩ => ⟨S39996x1, .i32⟩
  | .hbm, ⟨81, _⟩ => ⟨S20000x128, .f32⟩
  | .hbm, ⟨82, _⟩ => ⟨S1x128, .f32⟩
  | .hbm, ⟨83, _⟩ => ⟨S128, .f32⟩
  | .hbm, ⟨84, _⟩ => ⟨S_, .i32⟩
  | .hbm, ⟨85, _⟩ => ⟨S20000, .i32⟩
  | .hbm, ⟨86, _⟩ => ⟨S20000, .i1⟩
  | .hbm, ⟨87, _⟩ => ⟨S_, .i32⟩
  | .hbm, ⟨88, _⟩ => ⟨S20000, .i32⟩
  | .hbm, ⟨89, _⟩ => ⟨S20000, .i32⟩
  | .hbm, ⟨90, _⟩ => ⟨S20000, .i32⟩
  | .hbm, ⟨91, _⟩ => ⟨S20000x1, .i32⟩
  | .hbm, ⟨92, _⟩ => ⟨S20000x128, .f32⟩
  | .hbm, ⟨93, _⟩ => ⟨S1x128, .f32⟩
  | .hbm, ⟨94, _⟩ => ⟨S20000x128, .f32⟩
  | .hbm, ⟨95, _⟩ => ⟨S20000x128, .f32⟩
  | .hbm, ⟨96, _⟩ => ⟨S20000x128, .f32⟩
  | .hbm, ⟨97, _⟩ => ⟨S20000x128, .f32⟩
  | .hbm, ⟨98, _⟩ => ⟨S1x128, .f32⟩
  | .hbm, ⟨99, _⟩ => ⟨S1x128, .f32⟩
  | .hbm, ⟨100, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S5120x64, .f32⟩
  | .local _ .vmem, ⟨6, _⟩ => ⟨S5120x64, .f32⟩
  | .local _ .vmem, ⟨7, _⟩ => ⟨S5120x1, .f32⟩
  | .local _ .vmem, ⟨8, _⟩ => ⟨S5120x1, .f32⟩
  | .local _ .vmem, ⟨9, _⟩ => ⟨S5120x128, .f32⟩
  | .local _ .vmem, ⟨10, _⟩ => ⟨S5120x128, .f32⟩
  | .local _ .vmem, ⟨11, _⟩ => ⟨S64x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S5120x128, .f32⟩
  | .local _ .vmem, ⟨16, _⟩ => ⟨S5120x128, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_9 : Ref sig .tc := ⟨.hbm, 84, rfl⟩
abbrev main_v57 : Ref sig .tc := ⟨.hbm, 85, rfl⟩
abbrev main_v58 : Ref sig .tc := ⟨.hbm, 86, rfl⟩
abbrev main_c_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5120x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5120x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5120x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5120x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S640000_S640000x1 : S640000.ShapeCasts S640000x1
  shapeCasts_S128_S1x128 : S128.ShapeCasts S1x128
  inb_S5120x64_S5120x64_0_0 : ∀ a, (![0, 0] : Fin 2 → Nat) a + S5120x64.size a ≤ S5120x64.size a
  h_S5120x64 : 0 < S5120x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  inb_S5120x1_S5120x1_0_0 : ∀ a, (![0, 0] : Fin 2 → Nat) a + S5120x1.size a ≤ S5120x1.size a
  h_S5120x1 : 0 < S5120x1.numel
  shapeCasts_S5120x1_S5120x1 : S5120x1.ShapeCasts S5120x1
  natLt_1_32 : 1 < 32
  broadcasts_S5120x1_S5120x128 : S5120x1.Broadcasts S5120x128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  bcast_S_S20000x128 : S_.BroadcastsInDim S20000x128 (![] : Fin 0 → Fin S20000x128.rank)
  slices_S2x39996_S1x39996_0_0 : S2x39996.Slices ![0, 0] S1x39996
  shapeCasts_S1x39996_S39996 : S1x39996.ShapeCasts S39996
  bcast_S_S39996 : S_.BroadcastsInDim S39996 (![] : Fin 0 → Fin S39996.rank)
  bcast_S39996_S39996x1_0 : S39996.BroadcastsInDim S39996x1 (![0] : Fin 1 → Fin S39996x1.rank)
  slices_S2x39996_S1x39996_1_0 : S2x39996.Slices ![1, 0] S1x39996
  slices_S3x128_S1x128_1_0 : S3x128.Slices ![1, 0] S1x128
  shapeCasts_S1x128_S128 : S1x128.ShapeCasts S128
  bcast_S_S20000 : S_.BroadcastsInDim S20000 (![] : Fin 0 → Fin S20000.rank)
  bcast_S20000_S20000x1_0 : S20000.BroadcastsInDim S20000x1 (![0] : Fin 1 → Fin S20000x1.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  shapeCasts_S2000x128_S2000x128 : S2000x128.ShapeCasts S2000x128
  broadcasts_S1x128_S2000x128 : S1x128.Broadcasts S2000x128
  dot_S2000x128_S128x128_S2000x128_1_0_0_1_n_n_wf : DotDims.WF S2000x128 S128x128 S2000x128 [1] [0] [0] [1] [] []
  gather_S20000x128_S640000x1_S640000x128_1_0_n_n_0_1_1128_wf : GatherDims.WF S20000x128 S640000x1 S640000x128 [1] [0] [] [0] [] 1 ![1, 128]
  dot_S5120x64_S64x128_S5120x128_1_0_0_1_n_n_wf : DotDims.WF S5120x64 S64x128 S5120x128 [1] [0] [0] [1] [] []
  dot_S5120x128_S128x128_S5120x128_1_0_0_1_n_n_wf : DotDims.WF S5120x128 S128x128 S5120x128 [1] [0] [0] [1] [] []
  scatter_S20000x128_S640000x1_S640000x128_1_0_0_1_wf : ScatterDims.WF S20000x128 S640000x1 S640000x128 [1] [0] [0] 1
  gather_S20000_S39996x1_S39996_n_0_n_n_0_1_1_wf : GatherDims.WF S20000 S39996x1 S39996 [] [0] [] [0] [] 1 ![1]
  gather_S20000x128_S39996x1_S39996x128_1_0_n_n_0_1_1128_wf : GatherDims.WF S20000x128 S39996x1 S39996x128 [1] [0] [] [0] [] 1 ![1, 128]
  gather_S3x128_S39996x1_S39996x128_1_0_n_n_0_1_1128_wf : GatherDims.WF S3x128 S39996x1 S39996x128 [1] [0] [] [0] [] 1 ![1, 128]
  scatter_S20000x128_S39996x1_S39996x128_1_0_0_1_wf : ScatterDims.WF S20000x128 S39996x1 S39996x128 [1] [0] [0] 1
  gather_S20000x128_S20000x1_S20000x128_1_0_n_n_0_1_1128_wf : GatherDims.WF S20000x128 S20000x1 S20000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120x64.size a ≤ S640000x64.size a
  hwx1_0 : ∀ i : grid1.Coords, EltTy.bits .f32 = 32 ∨ (Rect.block (s := S640000x64) S5120x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x1.size a ≤ S640000x1.size a
  hwx1_1 : ∀ i : grid1.Coords, EltTy.bits .f32 = 32 ∨ (Rect.block (s := S640000x1) S5120x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5120x128.size a ≤ S640000x128.size a
  hwx1_2 : ∀ i : grid1.Coords, EltTy.bits .f32 = 32 ∨ (Rect.block (s := S640000x128) S5120x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5120x128.size a ≤ S640000x128.size a
  hwx1_7 : ∀ i : grid1.Coords, EltTy.bits .f32 = 32 ∨ (Rect.block (s := S640000x128) S5120x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S5120x64_S64x128_S5120x128_1_0_0_1_n_n : DotDims S5120x64 S64x128 S5120x128 where
  lhsContracting := [1]
  rhsContracting := [0]
  lhsNonContracting := [0]
  rhsNonContracting := [1]
  lhsBatch := []
  rhsBatch := []
  wf := dot_S5120x64_S64x128_S5120x128_1_0_0_1_n_n_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def gather_S20000_S39996x1_S39996_n_0_n_n_0_1_1 : GatherDims S20000 S39996x1 S39996 where
  offsetDims := []
  collapsedSliceDims := [0]
  operandBatchingDims := []
  startIndicesBatchingDims := []
  startIndexMap := [0]
  indexVectorDim := 1
  sliceSizes := ![1]
  wf := gather_S20000_S39996x1_S39996_n_0_n_n_0_1_1_wf
def gather_S20000x128_S39996x1_S39996x128_1_0_n_n_0_1_1128 : GatherDims S20000x128 S39996x1 S39996x128 where
  offsetDims := [1]
  collapsedSliceDims := [0]
  operandBatchingDims := []
  startIndicesBatchingDims := []
  startIndexMap := [0]
  indexVectorDim := 1
  sliceSizes := ![1, 128]
  wf := gather_S20000x128_S39996x1_S39996x128_1_0_n_n_0_1_1128_wf
def gather_S3x128_S39996x1_S39996x128_1_0_n_n_0_1_1128 : GatherDims S3x128 S39996x1 S39996x128 where
  offsetDims := [1]
  collapsedSliceDims := [0]
  operandBatchingDims := []
  startIndicesBatchingDims := []
  startIndexMap := [0]
  indexVectorDim := 1
  sliceSizes := ![1, 128]
  wf := gather_S3x128_S39996x1_S39996x128_1_0_n_n_0_1_1128_wf
def scatter_S20000x128_S39996x1_S39996x128_1_0_0_1 : ScatterDims S20000x128 S39996x1 S39996x128 where
  updateWindowDims := [1]
  insertedWindowDims := [0]
  scatterDimsToOperandDims := [0]
  indexVectorDim := 1
  wf := scatter_S20000x128_S39996x1_S39996x128_1_0_0_1_wf
def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S5120x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5120x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5120x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S5120x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v68) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S640000 : Shape := ⟨1, ![640000]⟩
abbrev S640000x64 : Shape := ⟨2, ![640000, 64]⟩
abbrev S20000 : Shape := ⟨1, ![20000]⟩
abbrev S2x39996 : Shape := ⟨2, ![2, 39996]⟩
abbrev S128x128 : Shape := ⟨2, ![128, 128]⟩
abbrev S64x128 : Shape := ⟨2, ![64, 128]⟩
abbrev S128 : Shape := ⟨1, ![128]⟩
abbrev S3x128 : Shape := ⟨2, ![3, 128]⟩
abbrev S_ : Shape := ⟨0, ![]⟩
abbrev S640000x128 : Shape := ⟨2, ![640000, 128]⟩
abbrev S1x128 : Shape := ⟨2, ![1, 128]⟩
abbrev S640000x1 : Shape := ⟨2, ![640000, 1]⟩
abbrev S1x640000 : Shape := ⟨2, ![1, 640000]⟩
abbrev S1x39996 : Shape := ⟨2, ![1, 39996]⟩
abbrev S39996 : Shape := ⟨1, ![39996]⟩
abbrev S39996x1 : Shape := ⟨2, ![39996, 1]⟩
abbrev S39996x128 : Shape := ⟨2, ![39996, 128]⟩
abbrev S20000x1 : Shape := ⟨2, ![20000, 1]⟩

abbrev nBuf : Space → Nat
  | .hbm => 134
  | .vmem => 0
  | .smem => 0
  | _ => 0

abbrev hbmTy0_0 (i : Nat) : BufTy := match i % 128 with
  | 0 => ⟨S20000x128, .f32⟩
  | 1 => ⟨S2x640000, .i32⟩
  | 2 => ⟨S640000, .f32⟩
  | 3 => ⟨S640000x64, .f32⟩
  | 4 => ⟨S20000, .i32⟩
  | 5 => ⟨S2x39996, .i32⟩
  | 6 => ⟨S128x128, .f32⟩
  | 7 => ⟨S64x128, .f32⟩
  | 8 => ⟨S128, .f32⟩
  | 9 => ⟨S128x128, .f32⟩
  | 10 => ⟨S128, .f32⟩
  | 11 => ⟨S3x128, .f32⟩
  | 12 => ⟨S128x128, .f32⟩
  | 13 => ⟨S128, .f32⟩
  | 14 => ⟨S128x128, .f32⟩
  | 15 => ⟨S128, .f32⟩
  | 16 => ⟨S_, .f32⟩
  | 17 => ⟨S640000, .f32⟩
  | 18 => ⟨S640000, .f32⟩
  | 19 => ⟨S_, .f32⟩
  | 20 => ⟨S640000, .f32⟩
  | 21 => ⟨S640000, .f32⟩
  | 22 => ⟨S640000, .f32⟩
  | 23 => ⟨S_, .f32⟩
  | 24 => ⟨S640000, .f32⟩
  | 25 => ⟨S640000, .f32⟩
  | 26 => ⟨S_, .f32⟩
  | 27 => ⟨S640000, .f32⟩
  | 28 => ⟨S640000, .f32⟩
  | 29 => ⟨S_, .f32⟩
  | 30 => ⟨S640000, .f32⟩
  | 31 => ⟨S640000, .i1⟩
  | 32 => ⟨S640000, .f32⟩
  | 33 => ⟨S640000, .f32⟩
  | 34 => ⟨S640000x128, .f32⟩
  | 35 => ⟨S1x128, .f32⟩
  | 36 => ⟨S640000x128, .f32⟩
  | 37 => ⟨S640000x128, .f32⟩
  | 38 => ⟨S640000x128, .f32⟩
  | 39 => ⟨S640000x128, .f32⟩
  | 40 => ⟨S1x128, .f32⟩
  | 41 => ⟨S640000x128, .f32⟩
  | 42 => ⟨S640000x128, .f32⟩
  | 43 => ⟨S640000x1, .f32⟩
  | 44 => ⟨S640000x128, .f32⟩
  | 45 => ⟨S640000x128, .f32⟩
  | 46 => ⟨S20000x128, .f32⟩
  | 47 => ⟨S1x640000, .i32⟩
  | 48 => ⟨S640000, .i32⟩
  | 49 => ⟨S1x640000, .i32⟩
  | 50 => ⟨S640000, .i32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S640000x128, .f32⟩
  | 61 => ⟨S_, .f32⟩
  | 62 => ⟨S20000x128, .f32⟩
  | 63 => ⟨S640000x1, .i32⟩
  | 64 => ⟨S20000x128, .f32⟩
  | 65 => ⟨S1x39996, .i32⟩
  | 66 => ⟨S39996, .i32⟩
  | 67 => ⟨S_, .i32⟩
  | 68 => ⟨S39996, .i32⟩
  | 69 => ⟨S39996, .i1⟩
  | 70 => ⟨S_, .i32⟩
  | 71 => ⟨S39996, .i32⟩
  | 72 => ⟨S39996, .i32⟩
  | 73 => ⟨S39996, .i32⟩
  | 74 => ⟨S39996x1, .i32⟩
  | 75 => ⟨S39996, .i32⟩
  | 76 => ⟨S_, .i32⟩
  | 77 => ⟨S39996, .i32⟩
  | 78 => ⟨S39996, .i1⟩
  | 79 => ⟨S_, .i32⟩
  | 80 => ⟨S39996, .i32⟩
  | 81 => ⟨S39996, .i32⟩
  | 82 => ⟨S39996, .i32⟩
  | 83 => ⟨S39996x1, .i32⟩
  | 84 => ⟨S39996x128, .f32⟩
  | 85 => ⟨S1x39996, .i32⟩
  | 86 => ⟨S39996, .i32⟩
  | 87 => ⟨S1x39996, .i32⟩
  | 88 => ⟨S39996, .i32⟩
  | 89 => ⟨S39996, .i32⟩
  | 90 => ⟨S_, .i32⟩
  | 91 => ⟨S39996, .i32⟩
  | 92 => ⟨S39996, .i32⟩
  | 93 => ⟨S_, .i32⟩
  | 94 => ⟨S39996, .i32⟩
  | 95 => ⟨S39996, .i1⟩
  | 96 => ⟨S_, .i32⟩
  | 97 => ⟨S39996, .i32⟩
  | 98 => ⟨S39996, .i32⟩
  | 99 => ⟨S39996, .i32⟩
  | 100 => ⟨S39996x1, .i32⟩
  | 101 => ⟨S39996x128, .f32⟩
  | 102 => ⟨S39996x128, .f32⟩
  | 103 => ⟨S1x39996, .i32⟩
  | 104 => ⟨S39996, .i32⟩
  | 105 => ⟨S_, .f32⟩
  | 106 => ⟨S20000x128, .f32⟩
  | 107 => ⟨S39996x1, .i32⟩
  | 108 => ⟨S20000x128, .f32⟩
  | 109 => ⟨S1x128, .f32⟩
  | 110 => ⟨S128, .f32⟩
  | 111 => ⟨S_, .i32⟩
  | 112 => ⟨S20000, .i32⟩
  | 113 => ⟨S20000, .i1⟩
  | 114 => ⟨S_, .i32⟩
  | 115 => ⟨S20000, .i32⟩
  | 116 => ⟨S20000, .i32⟩
  | 117 => ⟨S20000, .i32⟩
  | 118 => ⟨S20000x1, .i32⟩
  | 119 => ⟨S20000x128, .f32⟩
  | 120 => ⟨S1x128, .f32⟩
  | 121 => ⟨S20000x128, .f32⟩
  | 122 => ⟨S20000x128, .f32⟩
  | 123 => ⟨S20000x128, .f32⟩
  | 124 => ⟨S20000x128, .f32⟩
  | 125 => ⟨S20000x128, .f32⟩
  | 126 => ⟨S1x128, .f32⟩
  | 127 => ⟨S20000x128, .f32⟩
  | _ => ⟨S20000x128, .f32⟩

abbrev hbmTy0_1 (i : Nat) : BufTy := match i % 128 with
  | 0 => ⟨S20000x128, .f32⟩
  | 1 => ⟨S20000x128, .f32⟩
  | 2 => ⟨S20000x128, .f32⟩
  | 3 => ⟨S1x128, .f32⟩
  | 4 => ⟨S20000x128, .f32⟩
  | 5 => ⟨S20000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_6 : Ref sig .tc := ⟨.hbm, 67, rfl⟩
abbrev main_v43 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_v79 : Ref sig .tc := ⟨.hbm, 112, rfl⟩
abbrev main_v80 : Ref sig .tc := ⟨.hbm, 113, rfl⟩
abbrev main_c_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S20000x128 : S_.BroadcastsInDim S20000x128 (![] : Fin 0 → Fin S20000x128.rank)
  slices_S2x39996_S1x39996_0_0 : S2x39996.Slices ![0, 0] S1x39996
  shapeCasts_S1x39996_S39996 : S1x39996.ShapeCasts S39996
  bcast_S_S39996 : S_.BroadcastsInDim S39996 (![] : Fin 0 → Fin S39996.rank)
  bcast_S39996_S39996x1_0 : S39996.BroadcastsInDim S39996x1 (![0] : Fin 1 → Fin S39996x1.rank)
  slices_S2x39996_S1x39996_1_0 : S2x39996.Slices ![1, 0] S1x39996
  slices_S3x128_S1x128_1_0 : S3x128.Slices ![1, 0] S1x128
  shapeCasts_S1x128_S128 : S1x128.ShapeCasts S128
  bcast_S_S20000 : S_.BroadcastsInDim S20000 (![] : Fin 0 → Fin S20000.rank)
  bcast_S20000_S20000x1_0 : S20000.BroadcastsInDim S20000x1 (![0] : Fin 1 → Fin S20000x1.rank)
  bcast_S1x128_S20000x128_0_1 : S1x128.BroadcastsInDim S20000x128 (![0, 1] : Fin 2 → Fin S20000x128.rank)
  dot_S640000x64_S64x128_S640000x128_1_0_0_1_n_n_wf : DotDims.WF S640000x64 S64x128 S640000x128 [1] [0] [0] [1] [] []
  dot_S640000x128_S128x128_S640000x128_1_0_0_1_n_n_wf : DotDims.WF S640000x128 S128x128 S640000x128 [1] [0] [0] [1] [] []
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  gather_S20000_S39996x1_S39996_n_0_n_n_0_1_1_wf : GatherDims.WF S20000 S39996x1 S39996 [] [0] [] [0] [] 1 ![1]
  gather_S20000x128_S39996x1_S39996x128_1_0_n_n_0_1_1128_wf : GatherDims.WF S20000x128 S39996x1 S39996x128 [1] [0] [] [0] [] 1 ![1, 128]
  gather_S3x128_S39996x1_S39996x128_1_0_n_n_0_1_1128_wf : GatherDims.WF S3x128 S39996x1 S39996x128 [1] [0] [] [0] [] 1 ![1, 128]
  scatter_S20000x128_S39996x1_S39996x128_1_0_0_1_wf : ScatterDims.WF S20000x128 S39996x1 S39996x128 [1] [0] [0] 1
  gather_S20000x128_S20000x1_S20000x128_1_0_n_n_0_1_1128_wf : GatherDims.WF S20000x128 S20000x1 S20000x128 [1] [0] [] [0] [] 1 ![1, 128]

variable [Facts₀]

def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def gather_S20000_S39996x1_S39996_n_0_n_n_0_1_1 : GatherDims S20000 S39996x1 S39996 where
  offsetDims := []
  collapsedSliceDims := [0]
  operandBatchingDims := []
  startIndicesBatchingDims := []
  startIndexMap := [0]
  indexVectorDim := 1
  sliceSizes := ![1]
  wf := gather_S20000_S39996x1_S39996_n_0_n_n_0_1_1_wf
def gather_S20000x128_S39996x1_S39996x128_1_0_n_n_0_1_1128 : GatherDims S20000x128 S39996x1 S39996x128 where
  offsetDims := [1]
  collapsedSliceDims := [0]
  operandBatchingDims := []
  startIndicesBatchingDims := []
  startIndexMap := [0]
  indexVectorDim := 1
  sliceSizes := ![1, 128]
  wf := gather_S20000x128_S39996x1_S39996x128_1_0_n_n_0_1_1128_wf
def gather_S3x128_S39996x1_S39996x128_1_0_n_n_0_1_1128 : GatherDims S3x128 S39996x1 S39996x128 where
  offsetDims := [1]
  collapsedSliceDims := [0]
  operandBatchingDims := []
  startIndicesBatchingDims := []
  startIndexMap := [0]
  indexVectorDim := 1
  sliceSizes := ![1, 128]
  wf := gather_S3x128_S39996x1_S39996x128_1_0_n_n_0_1_1128_wf
def scatter_S20000x128_S39996x1_S39996x128_1_0_0_1 : ScatterDims S20000x128 S39996x1 S39996x128 where
  updateWindowDims := [1]
  insertedWindowDims := [0]
  scatterDimsToOperandDims := [0]
  indexVectorDim := 1
  wf := scatter_S20000x128_S39996x1_S39996x128_1_0_0_1_wf
def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf

class Facts : Prop extends Facts₀ where

variable [Facts]
-- ==== Proof.Spec.lean ====
/-
  The layer's three dense stages, each as one whole-array expression of its operands over the extended reals.

  * lin1: the node features times the first weight matrix, h = x . W1.
  * msgs: per edge, the filter network's row ((tanh (attr . F1 + b1)) . F2 + b2), scaled by the cosine cutoff of the
    edge's length, 0.5 (cos (pi r / 5) + 1) [r < 5], times the gathered source row.
  * finalize: per node, tanh (h2 . W2 + c2) . W3 + c3.

  A bias vector is laid along the columns of every row; the cutoff, one number per edge, along every column of its row.
-/
import Idealize.ShloMosaic.Lib.Pipeline.Value
import Idealize.ShloMosaic.Lib.ValueIdx
import Idealize.ShloMosaic.PureOps.Ideal.Laws

noncomputable section

namespace Cert.Spec

open Idealize.ShloMosaic Idealize.ShloMosaic.ValueIdx

/-- nodes x features -/
abbrev SN : Shape := ⟨2, ![20000, 128]⟩
/-- edges x features -/
abbrev SE : Shape := ⟨2, ![640000, 128]⟩
/-- edges x radial basis -/
abbrev SEr : Shape := ⟨2, ![640000, 64]⟩
/-- edges, as one column -/
abbrev SE1 : Shape := ⟨2, ![640000, 1]⟩
/-- edges -/
abbrev SEv : Shape := ⟨1, ![640000]⟩
/-- features -/
abbrev SF : Shape := ⟨1, ![128]⟩
/-- features, as one row -/
abbrev S1F : Shape := ⟨2, ![1, 128]⟩
abbrev SFF : Shape := ⟨2, ![128, 128]⟩
abbrev SRF : Shape := ⟨2, ![64, 128]⟩
abbrev S0 : Shape := ⟨0, ![]⟩

theorem b_F_1F : SF.BroadcastsInDim S1F (![1] : Fin 1 → Fin S1F.rank) := by decide
theorem b_1F_N : S1F.BroadcastsInDim SN (![0, 1] : Fin 2 → Fin SN.rank) := by decide
theorem b_1F_E : S1F.BroadcastsInDim SE (![0, 1] : Fin 2 → Fin SE.rank) := by decide
theorem b_0_Ev : S0.BroadcastsInDim SEv (![] : Fin 0 → Fin SEv.rank) := by decide
theorem b_Ev_E1 : SEv.BroadcastsInDim SE1 (![0] : Fin 1 → Fin SE1.rank) := by decide
theorem b_E1_E : SE1.BroadcastsInDim SE (![0, 1] : Fin 2 → Fin SE.rank) := by decide

/-- h = x . W1 -/
def lin1 (x : FVec Ideal SN .f32) (w : FVec Ideal SFF .f32) : FVec Ideal SN .f32 :=
  Host.dotGeneral (DotDims.plain 20000 128 128) none x w

/-- A bias vector laid along every node's row. -/
def rowN (b : FVec Ideal SF .f32) : FVec Ideal SN .f32 :=
  broadcastInDim SN ![0, 1] b_1F_N (broadcastInDim S1F ![1] b_F_1F b)

/-- A bias vector laid along every edge's row. -/
def rowE (b : FVec Ideal SF .f32) : FVec Ideal SE .f32 :=
  broadcastInDim SE ![0, 1] b_1F_E (broadcastInDim S1F ![1] b_F_1F b)

/-- A number splat over the edges. -/
def splatE (w : BitVec 32) : FVec Ideal SEv .f32 :=
  broadcastInDim SEv ![] b_0_Ev (constant (F := Ideal) S0 .f32 w)

/-- The cosine cutoff of an edge's length: 0.5 (cos (pi r / 5) + 1) where r < 5, zero elsewhere. -/
def cutoff (r : FVec Ideal SEv .f32) : FVec Ideal SEv .f32 :=
  mulf (mulf (splatE 0x3F000000#32) (addf (Host.cos (Host.divf (mulf (splatE 0x40490FDB#32) r) (splatE 0x40A00000#32))) (splatE 0x3F800000#32)))
    (uitofp (F := Ideal) .f32 (cmpf .olt r (splatE 0x40A00000#32)))

/-- One number per edge laid along every column of the edge's row. -/
def colE (c : FVec Ideal SEv .f32) : FVec Ideal SE .f32 :=
  broadcastInDim SE ![0, 1] b_E1_E (broadcastInDim SE1 ![0] b_Ev_E1 c)

/-- The filter network's rows: tanh (attr . F1 + b1) . F2 + b2. -/
def filt (ea : FVec Ideal SEr .f32) (f1w : FVec Ideal SRF .f32) (f1b : FVec Ideal SF .f32) (f2w : FVec Ideal SFF .f32)
    (f2b : FVec Ideal SF .f32) : FVec Ideal SE .f32 :=
  addf (Host.dotGeneral (DotDims.plain 640000 128 128) none
    (Host.tanh (addf (Host.dotGeneral (DotDims.plain 640000 64 128) none ea f1w) (rowE f1b))) f2w) (rowE f2b)

/-- The messages: the gathered source row times the filter row scaled by the cutoff. -/
def msgs (ea : FVec Ideal SEr .f32) (r : FVec Ideal SEv .f32) (hg : FVec Ideal SE .f32) (f1w : FVec Ideal SRF .f32)
    (f1b : FVec Ideal SF .f32) (f2w : FVec Ideal SFF .f32) (f2b : FVec Ideal SF .f32) : FVec Ideal SE .f32 :=
  mulf hg (mulf (filt ea f1w f1b f2w f2b) (colE (cutoff r)))

/-- The block's tail: tanh (h2 . W2 + c2) . W3 + c3. -/
def finalize (h : FVec Ideal SN .f32) (w2 : FVec Ideal SFF .f32) (c2 : FVec Ideal SF .f32) (w3 : FVec Ideal SFF .f32)
    (c3 : FVec Ideal SF .f32) : FVec Ideal SN .f32 :=
  addf (Host.dotGeneral (DotDims.plain 20000 128 128) none
    (Host.tanh (addf (Host.dotGeneral (DotDims.plain 20000 128 128) none h w2) (rowN c2))) w3) (rowN c3)

end Cert.Spec

end
-- ==== Proof.Bridge.lean ====
/-
  The three dense stages as stated over plain products are, term for term, the reference's own stages: the reference
  computes h = x . W1, the messages h[src] * ((tanh (attr . F1 + b1) . F2 + b2) * cutoff (r)) and the tail
  tanh (h2 . W2 + c2) . W3 + c3 by the same operations on the same operands, so each equation holds by unfolding the names.
-/
import proofs.«164510_j31559419691086_1_alg».proof.Proof.Spec
import proofs.«164510_j31559419691086_1_alg».proof.Proof.Gen.ReferenceIdeal.Read

set_option maxRecDepth 16384

noncomputable section

namespace Cert.Bridge

open Idealize.ShloMosaic Cert.Spec Cert.ReferenceIdeal.Read

/-- The first stage is the reference's product of the node features and the first weight matrix. -/
theorem lin1_eq (x0 : FVec Ideal SN .f32) (x6 : FVec Ideal SFF .f32) :
    lin1 x0 x6 = val_main_v25 (F := Ideal) x0 x6 := rfl

/-- The messages over the reference's gathered source rows are the reference's messages. -/
theorem msgs_eq (x0 : FVec Ideal SN .f32) (x1 : IVec ⟨2, ![2, 640000]⟩ 32) (x2 : FVec Ideal SEv .f32) (x3 : FVec Ideal SEr .f32)
    (x6 : FVec Ideal SFF .f32) (x7 : FVec Ideal SRF .f32) (x8 : FVec Ideal SF .f32) (x9 : FVec Ideal SFF .f32) (x10 : FVec Ideal SF .f32) :
    msgs x3 x2 (val_main_v36 (F := Ideal) x0 x1 x6) x7 x8 x9 x10 = val_main_v37 (F := Ideal) x0 x1 x2 x3 x6 x7 x8 x9 x10 := rfl

/-- The tail over the reference's aggregated features is the reference's result. -/
theorem finalize_eq (x0 : FVec Ideal SN .f32) (x1 : IVec ⟨2, ![2, 640000]⟩ 32) (x2 : FVec Ideal SEv .f32) (x3 : FVec Ideal SEr .f32)
    (x4 : IVec ⟨1, ![20000]⟩ 32) (x5 : IVec ⟨2, ![2, 39996]⟩ 32)
    (x6 : FVec Ideal SFF .f32) (x7 : FVec Ideal SRF .f32) (x8 : FVec Ideal SF .f32) (x9 : FVec Ideal SFF .f32) (x10 : FVec Ideal SF .f32)
    (x11 : FVec Ideal ⟨2, ![3, 128]⟩ .f32) (x12 : FVec Ideal SFF .f32) (x13 : FVec Ideal SF .f32) (x14 : FVec Ideal SFF .f32) (x15 : FVec Ideal SF .f32) :
    finalize (val_main_v90 (F := Ideal) x0 x1 x2 x3 x4 x5 x6 x7 x8 x9 x10 x11) x12 x13 x14 x15
      = val_main_v99 (F := Ideal) x0 x1 x2 x3 x4 x5 x6 x7 x8 x9 x10 x11 x12 x13 x14 x15 := rfl

end Cert.Bridge

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.LibHostDot.lean ====
/-
  The host's plain product read at an entry, general in the sizes.

  A plain product on the host (rows x contraction times contraction x columns, no batch axis), at the exact instance,
  read at (r, c), is the sum over the contracted axis of lhs (r, k) * rhs (k, c): the same sum a tile product into the
  zero accumulator has, so a blocked product and the whole product agree entry by entry.
-/
import Idealize.ShloMosaic.Lib.Pipeline.Value
import Idealize.ShloMosaic.Lib.ValueIdx
import Idealize.ShloMosaic.PureOps.Ideal.Laws

noncomputable section

namespace Cert.LibHostDot

open Idealize.ShloMosaic Idealize.ShloMosaic.ValueIdx

/-- A plain M x K by K x N host product read at (r, c): the sum over k of lhs (r, k) * rhs (k, c). The contraction
    index, an index of a rank-one shape, is carried to Fin K; the operand indices at (r, c) and k are (r, k) and (k, c)
    coordinate by coordinate. -/
theorem hostDot_plain_apply {φ₁ φ₂ : FTy} (M K N : Nat) (lhs : FVec Ideal ⟨2, ![M, K]⟩ φ₁) (rhs : FVec Ideal ⟨2, ![K, N]⟩ φ₂)
    (r : Fin M) (c : Fin N) :
    Host.dotGeneral (DotDims.plain M K N) none lhs rhs (ix2 r c) = ∑ k : Fin K, lhs (ix2 r k) * rhs (ix2 k c) := by
  simp only [Host.dotGeneral]
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

end Cert.LibHostDot

end
-- ==== Proof.Lin1Region.lean ====
/-
  The first dense stage, block by block. Grid point t stages rows 2000 t .. 2000 t + 1999 of the node features and the
  whole weight matrix, multiplies them on the matrix unit into a zero accumulator, and writes rows 2000 t .. of the
  result. An entry (r, c) of the result array is therefore the sum over k of x (r, k) * W1 (k, c): the whole product.
-/
import proofs.«164510_j31559419691086_1_alg».proof.Proof.Gen.KernelIdeal.Frame
import proofs.«164510_j31559419691086_1_alg».proof.Proof.Spec
import proofs.«164510_j31559419691086_1_alg».proof.Proof.LibPlainDot
import proofs.«164510_j31559419691086_1_alg».proof.Proof.LibHostDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Lin1Region

open Cert.KernelIdeal Cert.KernelIdeal.Gen

variable (V : (c : Dev nD) → (b : Ref sig .tc) → Buf (Elt Ideal) ((c : Thread nD τ).loc b))

/-- The zero offsets of a whole-buffer access, as a constant function. -/
theorem zeroOff : (![0, 0] : Fin 2 → Nat) = fun _ => 0 := funext fun a => by fin_cases a <;> rfl

/-- The block indices over the grid: point t takes row block t of the features and of the result, and the one block
    of the weight matrix; there are ten points. -/
theorem blockIdx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ t.val < 10 :=
  (by decide +kernel : ∀ t : Fin grid0.N, _)

/-- The tile product at (p, q): the sum over k of the row tile at (p, k) times the weight matrix at (k, q). Rounding
    the operands to the narrower format changes nothing over the extended reals. -/
theorem tile_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact Cert.LibPlainDot.matmul_plain_apply 2000 128 128 x0 x1 p q

/-- Point t's block of the features is rows 2000 t .. of the feature array. -/
theorem featBlk_apply (c : Dev nD) (t : Fin cfg0.N) (p : Fin 2000) (k : Fin 128) (hr : 2000 * t.val + p.val < 20000) :
    (iblk0 V c 0 t : Vec Ideal S2000x128 .f32) (ix2 p k)
      = (V c main_arg0 : S20000x128.Idx → Ideal .f32) (ix2 ⟨2000 * t.val + p.val, hr⟩ k) := by
  obtain ⟨e0, e1, -, -, -, -, -⟩ := blockIdx t
  show V c main_arg0 (((cfg0.win 0).blk t).view.emb (ix2 p k)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- Every point's block of the weight matrix is the whole matrix. -/
theorem wBlk_apply (c : Dev nD) (t : Fin cfg0.N) (k : Fin 128) (q : Fin 128) :
    (iblk0 V c 1 t : Vec Ideal S128x128 .f32) (ix2 k q) = (V c main_arg6 : S128x128.Idx → Ideal .f32) (ix2 k q) := by
  obtain ⟨-, -, e2, e3, -, -, -⟩ := blockIdx t
  show V c main_arg6 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is rows 2000 t .. of the whole product. -/
theorem flushed_eq (c : Dev nD) (t : Fin cfg0.N) :
    (dat0 (F := Ideal) V c).flushed 2 t
      = ((cfg0.win 2).blk t).view.read (Elt Ideal) (Cert.Spec.lin1 (V c main_arg0) (V c main_arg6)) := by
  show (cfg0.win 2).cut (grid0.coords t) ((dat0 V c).after 2 t) = _
  rw [after0_2]
  unfold out0_2
  rw [View.canon_unit_zero zeroOff]
  simp only [View.ld_unit_zero (S := S2000x128) zeroOff, View.ld_unit_zero (S := S128x128) zeroOff]
  obtain ⟨-, -, -, -, e4, e5, e6⟩ := blockIdx t
  funext j
  obtain ⟨p, q, rfl⟩ : ∃ (p : Fin 2000) (q : Fin 128), j = ix2 p q := ⟨j 0, j 1, eq_ix2 j⟩
  have hr : 2000 * t.val + p.val < 20000 := by have := p.isLt; omega
  show k0_pay1 (iblk0 V c 0 t) (iblk0 V c 1 t) (ix2 p q)
    = Cert.Spec.lin1 (V c main_arg0) (V c main_arg6) (((cfg0.win 2).blk t).view.emb (ix2 p q))
  have hemb : ((cfg0.win 2).blk t).view.emb (ix2 p q) = (ix2 ⟨2000 * t.val + p.val, hr⟩ q : S20000x128.Idx) := by
    funext a; apply Fin.ext
    match a with
    | ⟨0, _⟩ => show win0_2.index t (0 : Fin 2) * 2000 + 1 * p.val = 2000 * t.val + p.val; omega
    | ⟨1, _⟩ => show win0_2.index t (1 : Fin 2) * 128 + 1 * q.val = q.val; omega
  rw [hemb]
  refine (tile_apply _ _ p q).trans ?_
  unfold Cert.Spec.lin1
  refine Eq.trans ?_ (Cert.LibHostDot.hostDot_plain_apply 20000 128 128 _ _ ⟨2000 * t.val + p.val, hr⟩ q).symm
  refine Finset.sum_congr rfl fun k _ => ?_
  rw [featBlk_apply V c t p k hr, wBlk_apply V c t k q]

/-- An index of the result array is in point t's block iff each coordinate is in the block's range on its axis. -/
theorem mem_blk (t : Fin cfg0.N) (i : S20000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry of the result array is written: row r by point r / 2000. -/
theorem cover (i : S20000x128.Idx) :
    ∃ t : Fin cfg0.N, (cfg0.win 2).flush t = true ∧ i ∈ ((cfg0.win 2).blk t).view.set := by
  have hi0 : (i 0).val < 20000 := (i 0).isLt
  have hi1 : (i 1).val < 128 := (i 1).isLt
  have hN : (i 0).val / 2000 < cfg0.N := by show _ < 10; omega
  obtain ⟨-, -, -, -, e4, e5, -⟩ := blockIdx ⟨(i 0).val / 2000, hN⟩
  have e4' : win0_2.index ⟨(i 0).val / 2000, hN⟩ (0 : Fin 2) = (i 0).val / 2000 := e4
  refine ⟨⟨(i 0).val / 2000, hN⟩, flush0_2 _, ?_⟩
  rw [mem_blk]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; omega
  | ⟨1, _⟩ => show win0_2.index ⟨(i 0).val / 2000, hN⟩ (1 : Fin 2) * 128 ≤ (i 1).val ∧ (i 1).val < win0_2.index ⟨(i 0).val / 2000, hN⟩ (1 : Fin 2) * 128 + 128; omega

/-- After the first region its result array holds the whole product of the two operand arrays as the region found them. -/
theorem final (c : Dev nD) :
    (dat0 (F := Ideal) V c).arrAt 2 cfg0.N = Cert.Spec.lin1 (V c main_arg0) (V c main_arg6) :=
  (dat0 (F := Ideal) V c).arrAt_eq_of_cover 2 (Cert.Spec.lin1 (V c main_arg0) (V c main_arg6))
    (fun t _ => flushed_eq V c t) cover

end Cert.KernelIdeal.Lin1Region

end
-- ==== Proof.FilterRegion.lean ====
/-
  The edge stage, block by block. Grid point t stages rows 5120 t .. 5120 t + 5119 of the edge attributes, of the edge
  lengths (one column) and of the gathered source rows, and the two filter weight matrices and biases whole. For each of
  its edges e and each feature f it forms ((tanh (attr_e . F1 + b1)) . F2 + b2)_f, scales it by the cosine cutoff of the
  edge's length, 0.5 (cos (pi r_e / 5) + 1) [r_e < 5], and multiplies by the source row's entry (e, f). The blocks tile the
  edges, so the result array is the messages array entry by entry; only the order of the last product differs from
  the plain expression, and a product of extended reals commutes.
-/
import proofs.«164510_j31559419691086_1_alg».proof.Proof.Gen.KernelIdeal.Frame
import proofs.«164510_j31559419691086_1_alg».proof.Proof.Spec
import proofs.«164510_j31559419691086_1_alg».proof.Proof.LibPlainDot
import proofs.«164510_j31559419691086_1_alg».proof.Proof.LibHostDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FilterRegion

open Cert.KernelIdeal Cert.KernelIdeal.Gen

/-! ## One entry of the messages, as a number -/

/-- The cosine cutoff of one edge length: 0.5 (cos (pi rho / 5) + 1) where rho < 5, zero elsewhere. -/
def cutAt (ρ : EReal) : EReal :=
  (Ideal.ofBits .f32 0x3F000000#32 * (Ideal.cos (Ideal.div (Ideal.ofBits .f32 0x40490FDB#32 * ρ) (Ideal.ofBits .f32 0x40A00000#32))
      + Ideal.ofBits .f32 0x3F800000#32))
    * (((Ideal.cmp .olt ρ (Ideal.ofBits .f32 0x40A00000#32)).toNat : ℝ) : EReal)

/-- One entry of the filter network's row: (tanh (a . F1 + beta1) . F2)_q + beta2, for the attribute row a. -/
def filtAt (a : Fin 64 → EReal) (f1w : (⟨2, ![64, 128]⟩ : Shape).Idx → EReal) (β1 : Fin 128 → EReal)
    (f2w : (⟨2, ![128, 128]⟩ : Shape).Idx → EReal) (β2 : EReal) (q : Fin 128) : EReal :=
  (∑ k : Fin 128, Ideal.tanh ((∑ j : Fin 64, a j * f1w (ix2 j k)) + β1 k) * f2w (ix2 k q)) + β2

/-! ## Reads at an index -/

/-- A one-column vector broadcast along N columns, read at (r, c): the column's entry r. -/
theorem bcastCol_apply {α : Type} {M N : Nat} (x : (⟨2, ![M, 1]⟩ : Shape).Idx → α)
    (h : (⟨2, ![M, 1]⟩ : Shape).Broadcasts ⟨2, ![M, N]⟩) (r : Fin M) (c : Fin N) :
    broadcastTo ⟨2, ![M, N]⟩ x h (ix2 r c) = x (ix2 r ⟨0, Nat.one_pos⟩) :=
  broadcastTo_apply x h (ix2 r c) (ix2 r ⟨0, Nat.one_pos⟩) (fun a => match a with
    | ⟨0, _⟩ => by
        show r.val = if M = 1 then 0 else r.val
        by_cases hM : M = 1
        · rw [if_pos hM]; have := r.isLt; omega
        · rw [if_neg hM]
    | ⟨1, _⟩ => by show (0 : Nat) = if (1 : Nat) = 1 then 0 else c.val; rw [if_pos rfl])

/-- A bit widened to a word and read signed is the bit read unsigned. -/
theorem bit_toInt : ∀ b : BitVec 1, (b.setWidth 32).toInt = (b.toNat : ℤ) := by decide

/-! ## The plain expression at an entry -/

/-- A bias laid along every edge's row reads its entry of the column. -/
theorem rowE_apply (b : FVec Ideal Cert.Spec.SF .f32) (e : Fin 640000) (q : Fin 128) :
    Cert.Spec.rowE b (ix2 e q) = b (ix1 q) :=
  (broadcastInDim_apply ![0, 1] Cert.Spec.b_1F_E _ (ix2 e q) (ix2 ⟨0, Nat.one_pos⟩ q) (fun a => match a with
    | ⟨0, _⟩ => by show (0 : Nat) = if (1 : Nat) = 1 then 0 else e.val; rw [if_pos rfl]
    | ⟨1, _⟩ => by show q.val = if (128 : Nat) = 1 then 0 else q.val; rw [if_neg (by decide)])).trans
  (broadcastInDim_apply ![1] Cert.Spec.b_F_1F b (ix2 ⟨0, Nat.one_pos⟩ q) (ix1 q) (fun a => match a with
    | ⟨0, _⟩ => by show q.val = if (128 : Nat) = 1 then 0 else q.val; rw [if_neg (by decide)]))

/-- One number per edge laid along the edge's row reads the edge's number. -/
theorem colE_apply (x : FVec Ideal Cert.Spec.SEv .f32) (e : Fin 640000) (q : Fin 128) :
    Cert.Spec.colE x (ix2 e q) = x (ix1 e) :=
  (broadcastInDim_apply ![0, 1] Cert.Spec.b_E1_E _ (ix2 e q) (ix2 e ⟨0, Nat.one_pos⟩) (fun a => match a with
    | ⟨0, _⟩ => by show e.val = if (640000 : Nat) = 1 then 0 else e.val; rw [if_neg (by decide)]
    | ⟨1, _⟩ => by show (0 : Nat) = if (1 : Nat) = 1 then 0 else q.val; rw [if_pos rfl])).trans
  (broadcastInDim_apply ![0] Cert.Spec.b_Ev_E1 x (ix2 e ⟨0, Nat.one_pos⟩) (ix1 e) (fun a => match a with
    | ⟨0, _⟩ => by show e.val = if (640000 : Nat) = 1 then 0 else e.val; rw [if_neg (by decide)]))

/-- The cutoff array at an edge is the cutoff of the edge's length. -/
theorem cutoff_apply (r : FVec Ideal Cert.Spec.SEv .f32) (e : Fin 640000) :
    Cert.Spec.cutoff r (ix1 e) = cutAt (r (ix1 e)) := rfl

/-- The filter rows at an entry. -/
theorem filt_apply (ea : FVec Ideal Cert.Spec.SEr .f32) (f1w : FVec Ideal Cert.Spec.SRF .f32) (f1b : FVec Ideal Cert.Spec.SF .f32)
    (f2w : FVec Ideal Cert.Spec.SFF .f32) (f2b : FVec Ideal Cert.Spec.SF .f32) (e : Fin 640000) (q : Fin 128) :
    Cert.Spec.filt ea f1w f1b f2w f2b (ix2 e q)
      = filtAt (fun j => ea (ix2 e j)) f1w (fun k => f1b (ix1 k)) f2w (f2b (ix1 q)) q := by
  show Host.dotGeneral (DotDims.plain 640000 128 128) none
      (Host.tanh (addf (Host.dotGeneral (DotDims.plain 640000 64 128) none ea f1w) (Cert.Spec.rowE f1b))) f2w (ix2 e q)
      + Cert.Spec.rowE f2b (ix2 e q) = _
  rw [Cert.LibHostDot.hostDot_plain_apply, rowE_apply]
  unfold filtAt
  congr 1
  refine Finset.sum_congr rfl fun k _ => ?_
  show Ideal.tanh (Host.dotGeneral (DotDims.plain 640000 64 128) none ea f1w (ix2 e k) + Cert.Spec.rowE f1b (ix2 e k)) * f2w (ix2 k q) = _
  rw [Cert.LibHostDot.hostDot_plain_apply, rowE_apply]

/-- The messages at an entry: the gathered source entry times the filter entry scaled by the edge's cutoff. -/
theorem msgs_apply (ea : FVec Ideal Cert.Spec.SEr .f32) (r : FVec Ideal Cert.Spec.SEv .f32) (hg : FVec Ideal Cert.Spec.SE .f32)
    (f1w : FVec Ideal Cert.Spec.SRF .f32) (f1b : FVec Ideal Cert.Spec.SF .f32) (f2w : FVec Ideal Cert.Spec.SFF .f32)
    (f2b : FVec Ideal Cert.Spec.SF .f32) (e : Fin 640000) (q : Fin 128) :
    Cert.Spec.msgs ea r hg f1w f1b f2w f2b (ix2 e q)
      = hg (ix2 e q) * (filtAt (fun j => ea (ix2 e j)) f1w (fun k => f1b (ix1 k)) f2w (f2b (ix1 q)) q * cutAt (r (ix1 e))) := by
  show hg (ix2 e q) * (Cert.Spec.filt ea f1w f1b f2w f2b (ix2 e q) * Cert.Spec.colE (Cert.Spec.cutoff r) (ix2 e q)) = _
  rw [filt_apply, colE_apply, cutoff_apply]

/-! ## The block's arithmetic at an entry -/

/-- The hidden layer of a block: tanh (attr . F1 + b1), the bias row laid down the block's rows. -/
def khid (x0 : Vec Ideal S5120x64 .f32) (x3 : Vec Ideal S64x128 .f32) (x4 : Vec Ideal S1x128 .f32) : FVec Ideal S5120x128 .f32 :=
  tanh (addf (matmul dot_S5120x64_S64x128_S5120x128_1_0_0_1_n_n none (truncf .bf16 x0 bitsLt_bf16_f32) (truncf .bf16 x3 bitsLt_bf16_f32)
      (constant (F := Ideal) S5120x128 .f32 0x00000000#32))
    (broadcastTo S5120x128 (shapeCast S1x128 x4 shapeCasts_S1x128_S1x128) broadcasts_S1x128_S5120x128))

/-- The filter rows of a block: hidden . F2 + b2. -/
def kfilt (x0 : Vec Ideal S5120x64 .f32) (x3 : Vec Ideal S64x128 .f32) (x4 : Vec Ideal S1x128 .f32) (x5 : Vec Ideal S128x128 .f32)
    (x6 : Vec Ideal S1x128 .f32) : FVec Ideal S5120x128 .f32 :=
  addf (matmul dot_S5120x128_S128x128_S5120x128_1_0_0_1_n_n none (truncf .bf16 (khid x0 x3 x4) bitsLt_bf16_f32) (truncf .bf16 x5 bitsLt_bf16_f32)
      (constant (F := Ideal) S5120x128 .f32 0x00000000#32))
    (broadcastTo S5120x128 (shapeCast S1x128 x6 shapeCasts_S1x128_S1x128) broadcasts_S1x128_S5120x128)

/-- The cutoff column of a block of lengths: 0.5 (cos (pi y / 5) + 1) times the bit y < 5 widened to a word and converted. -/
def kcut (y : FVec Ideal S5120x1 .f32) : FVec Ideal S5120x1 .f32 :=
  mulf (mulf (broadcast S5120x1 (Scalar.ofBits (F := Ideal) .f32 0x3F000000#32))
      (addf (cos (divf (mulf (broadcast S5120x1 (Scalar.ofBits (F := Ideal) .f32 0x40490FDB#32)) y)
        (broadcast S5120x1 (Scalar.ofBits (F := Ideal) .f32 0x40A00000#32))))
        (broadcast S5120x1 (Scalar.ofBits (F := Ideal) .f32 0x3F800000#32))))
    (sitofp .f32 (extui 32 (cmpf .olt y (broadcast S5120x1 (Scalar.ofBits (F := Ideal) .f32 0x40A00000#32))) natLt_1_32))

/-- The block's result is the filter rows times the cutoff column laid along the columns, times the gathered rows. -/
theorem pay_eq (x0 : Vec Ideal S5120x64 .f32) (x1 : Vec Ideal S5120x1 .f32) (x2 : Vec Ideal S5120x128 .f32) (x3 : Vec Ideal S64x128 .f32)
    (x4 : Vec Ideal S1x128 .f32) (x5 : Vec Ideal S128x128 .f32) (x6 : Vec Ideal S1x128 .f32) :
    k1_pay1 (k1_pay2 x0 x3 x4 x5 x6 x1) (k1_pay3 x2)
      = mulf (mulf (kfilt x0 x3 x4 x5 x6)
          (broadcastTo S5120x128 (kcut (shapeCast S5120x1 x1 shapeCasts_S5120x1_S5120x1)) broadcasts_S5120x1_S5120x128))
        (shapeCast S5120x128 x2 shapeCasts_S5120x128_S5120x128) := rfl

/-- The hidden layer at (p, k): tanh of the attribute row against column k of the first weights, plus the bias's entry k. -/
theorem khid_apply (x0 : Vec Ideal S5120x64 .f32) (x3 : Vec Ideal S64x128 .f32) (x4 : Vec Ideal S1x128 .f32) (p : Fin 5120) (k : Fin 128) :
    khid x0 x3 x4 (ix2 p k) = Ideal.tanh ((∑ j : Fin 64, x0 (ix2 p j) * x3 (ix2 j k)) + x4 (ix2 ⟨0, Nat.one_pos⟩ k)) := by
  show Ideal.tanh (matmul (DotDims.plain 5120 64 128) none (truncf .bf16 x0 bitsLt_bf16_f32) (truncf .bf16 x3 bitsLt_bf16_f32)
        (constant (F := Ideal) ⟨2, ![5120, 128]⟩ .f32 0x00000000#32) (ix2 p k)
      + broadcastTo S5120x128 (shapeCast S1x128 x4 shapeCasts_S1x128_S1x128) broadcasts_S1x128_S5120x128 (ix2 p k)) = _
  rw [Cert.LibPlainDot.matmul_plain_apply, Cert.LibPlainDot.bcastRow_apply, shapeCast_self]
  rfl

/-- The filter rows at (p, q). -/
theorem kfilt_apply (x0 : Vec Ideal S5120x64 .f32) (x3 : Vec Ideal S64x128 .f32) (x4 : Vec Ideal S1x128 .f32) (x5 : Vec Ideal S128x128 .f32)
    (x6 : Vec Ideal S1x128 .f32) (p : Fin 5120) (q : Fin 128) :
    kfilt x0 x3 x4 x5 x6 (ix2 p q)
      = filtAt (fun j => x0 (ix2 p j)) x3 (fun k => x4 (ix2 ⟨0, Nat.one_pos⟩ k)) x5 (x6 (ix2 ⟨0, Nat.one_pos⟩ q)) q := by
  show matmul (DotDims.plain 5120 128 128) none (truncf .bf16 (khid x0 x3 x4) bitsLt_bf16_f32) (truncf .bf16 x5 bitsLt_bf16_f32)
        (constant (F := Ideal) ⟨2, ![5120, 128]⟩ .f32 0x00000000#32) (ix2 p q)
      + broadcastTo S5120x128 (shapeCast S1x128 x6 shapeCasts_S1x128_S1x128) broadcasts_S1x128_S5120x128 (ix2 p q) = _
  rw [Cert.LibPlainDot.matmul_plain_apply, Cert.LibPlainDot.bcastRow_apply, shapeCast_self]
  unfold filtAt
  congr 1
  refine Finset.sum_congr rfl fun k _ => ?_
  show khid x0 x3 x4 (ix2 p k) * x5 (ix2 k q) = _
  rw [khid_apply]

/-- The cutoff column at an entry is the cutoff of that length: the widened bit read signed is the bit read unsigned. -/
theorem kcut_apply (y : FVec Ideal S5120x1 .f32) (i : S5120x1.Idx) : kcut y i = cutAt (y i) := by
  show (Ideal.ofBits .f32 0x3F000000#32 * (Ideal.cos (Ideal.div (Ideal.ofBits .f32 0x40490FDB#32 * y i) (Ideal.ofBits .f32 0x40A00000#32))
      + Ideal.ofBits .f32 0x3F800000#32))
    * (((((Ideal.cmp .olt (y i) (Ideal.ofBits .f32 0x40A00000#32)).setWidth 32).toInt : ℤ) : ℝ) : EReal) = _
  rw [bit_toInt, Int.cast_natCast]
  rfl

/-- THE BLOCK'S RESULT AT (p, q), from what its operands hold at the entries it reads: the attribute row, the length, the gathered
    entry, the two weight matrices, the first bias and the second bias's entry q. -/
theorem pay_entry (x0 : Vec Ideal S5120x64 .f32) (x1 : Vec Ideal S5120x1 .f32) (x2 : Vec Ideal S5120x128 .f32) (x3 : Vec Ideal S64x128 .f32)
    (x4 : Vec Ideal S1x128 .f32) (x5 : Vec Ideal S128x128 .f32) (x6 : Vec Ideal S1x128 .f32) (p : Fin 5120) (q : Fin 128)
    (a : Fin 64 → EReal) (ρ g : EReal) (f1w : (⟨2, ![64, 128]⟩ : Shape).Idx → EReal) (β1 : Fin 128 → EReal)
    (f2w : (⟨2, ![128, 128]⟩ : Shape).Idx → EReal) (β2 : EReal)
    (h0 : ∀ j : Fin 64, x0 (ix2 p j) = a j) (h1 : x1 (ix2 p ⟨0, Nat.one_pos⟩) = ρ) (h2 : x2 (ix2 p q) = g)
    (h3 : ∀ (j : Fin 64) (k : Fin 128), x3 (ix2 j k) = f1w (ix2 j k)) (h4 : ∀ k : Fin 128, x4 (ix2 ⟨0, Nat.one_pos⟩ k) = β1 k)
    (h5 : ∀ k q' : Fin 128, x5 (ix2 k q') = f2w (ix2 k q')) (h6 : x6 (ix2 ⟨0, Nat.one_pos⟩ q) = β2) :
    k1_pay1 (k1_pay2 x0 x3 x4 x5 x6 x1) (k1_pay3 x2) (ix2 p q) = (filtAt a f1w β1 f2w β2 q * cutAt ρ) * g := by
  rw [pay_eq]
  show (kfilt x0 x3 x4 x5 x6 (ix2 p q)
      * broadcastTo S5120x128 (kcut (shapeCast S5120x1 x1 shapeCasts_S5120x1_S5120x1)) broadcasts_S5120x1_S5120x128 (ix2 p q))
    * shapeCast S5120x128 x2 shapeCasts_S5120x128_S5120x128 (ix2 p q) = _
  rw [kfilt_apply, bcastCol_apply, kcut_apply, shapeCast_self, shapeCast_self, h1, h2, h6]
  unfold filtAt
  simp only [h0, h3, h4, h5]

variable (V : (c : Dev nD) → (b : Ref sig .tc) → Buf (Elt Ideal) ((c : Thread nD τ).loc b))

/-! ## From blocks to the array -/

theorem hz : (![0, 0] : Fin 2 → Nat) = fun _ => 0 := funext fun a => by fin_cases a <;> rfl

/-- The index maps over the grid: the attributes, the lengths, the gathered rows and the result are at row block t; the two weight
    matrices and the two biases are whole, at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The edge that row p of block t is: 5120 t + p. -/
def edgeOf (t : Fin cfg1.N) (p : Fin 5120) : Fin 640000 :=
  ⟨t.val * 5120 + p.val, by have hN : cfg1.N = 125 := N_1; have := t.isLt; have := p.isLt; omega⟩

/-- Block t of the attributes is rows 5120 t .. 5120 t + 5119 of the array. -/
theorem blk0_apply (c : Dev nD) (t : Fin cfg1.N) (p : Fin 5120) (j : Fin 64) :
    iblk1 V c 0 t (ix2 p j) = V c main_arg3 (ix2 (edgeOf t p) j) := by
  obtain ⟨e0, e1, -⟩ := idx_facts t
  unfold iblk1
  rw [View.read_apply]
  show V c main_arg3 _ = V c main_arg3 _
  congr 1
  funext a; apply Fin.ext
  match a with
  | ⟨0, _⟩ => show win1_0.index t (0 : Fin 2) * 5120 + 1 * p.val = t.val * 5120 + p.val; rw [e0]; omega
  | ⟨1, _⟩ => show win1_0.index t (1 : Fin 2) * 64 + 1 * j.val = j.val; rw [e1]; omega

/-- Block t of the length column is entries 5120 t .. 5120 t + 5119 of the column. -/
theorem blk1_apply (c : Dev nD) (t : Fin cfg1.N) (p : Fin 5120) (z : Fin 1) :
    iblk1 V c 1 t (ix2 p z) = V c main_v12 (ix2 (edgeOf t p) z) := by
  obtain ⟨-, -, e0, e1, -⟩ := idx_facts t
  unfold iblk1
  rw [View.read_apply]
  show V c main_v12 _ = V c main_v12 _
  congr 1
  funext a; apply Fin.ext
  match a with
  | ⟨0, _⟩ => show win1_1.index t (0 : Fin 2) * 5120 + 1 * p.val = t.val * 5120 + p.val; rw [e0]; omega
  | ⟨1, _⟩ => show win1_1.index t (1 : Fin 2) * 1 + 1 * z.val = z.val; rw [e1]; omega

/-- Block t of the gathered rows is rows 5120 t .. 5120 t + 5119 of the array. -/
theorem blk2_apply (c : Dev nD) (t : Fin cfg1.N) (p : Fin 5120) (q : Fin 128) :
    iblk1 V c 2 t (ix2 p q) = V c main_v11 (ix2 (edgeOf t p) q) := by
  obtain ⟨-, -, -, -, e0, e1, -⟩ := idx_facts t
  unfold iblk1
  rw [View.read_apply]
  show V c main_v11 _ = V c main_v11 _
  congr 1
  funext a; apply Fin.ext
  match a with
  | ⟨0, _⟩ => show win1_2.index t (0 : Fin 2) * 5120 + 1 * p.val = t.val * 5120 + p.val; rw [e0]; omega
  | ⟨1, _⟩ => show win1_2.index t (1 : Fin 2) * 128 + 1 * q.val = q.val; rw [e1]; omega

/-- The first weight matrix is staged whole at every point. -/
theorem blk3_apply (c : Dev nD) (t : Fin cfg1.N) (j : Fin 64) (k : Fin 128) :
    iblk1 V c 3 t (ix2 j k) = V c main_arg7 (ix2 j k) := by
  obtain ⟨-, -, -, -, -, -, e0, e1, -⟩ := idx_facts t
  unfold iblk1
  rw [View.read_apply]
  show V c main_arg7 _ = V c main_arg7 _
  congr 1
  funext a; apply Fin.ext
  match a with
  | ⟨0, _⟩ => show win1_3.index t (0 : Fin 2) * 64 + 1 * j.val = j.val; rw [e0]; omega
  | ⟨1, _⟩ => show win1_3.index t (1 : Fin 2) * 128 + 1 * k.val = k.val; rw [e1]; omega

/-- The first bias row is staged whole at every point. -/
theorem blk4_apply (c : Dev nD) (t : Fin cfg1.N) (z : Fin 1) (k : Fin 128) :
    iblk1 V c 4 t (ix2 z k) = V c main_v13 (ix2 z k) := by
  obtain ⟨-, -, -, -, -, -, -, -, e0, e1, -⟩ := idx_facts t
  unfold iblk1
  rw [View.read_apply]
  show V c main_v13 _ = V c main_v13 _
  congr 1
  funext a; apply Fin.ext
  match a with
  | ⟨0, _⟩ => show win1_4.index t (0 : Fin 2) * 1 + 1 * z.val = z.val; rw [e0]; omega
  | ⟨1, _⟩ => show win1_4.index t (1 : Fin 2) * 128 + 1 * k.val = k.val; rw [e1]; omega

/-- The second weight matrix is staged whole at every point. -/
theorem blk5_apply (c : Dev nD) (t : Fin cfg1.N) (k q : Fin 128) :
    iblk1 V c 5 t (ix2 k q) = V c main_arg9 (ix2 k q) := by
  obtain ⟨-, -, -, -, -, -, -, -, -, -, e0, e1, -⟩ := idx_facts t
  unfold iblk1
  rw [View.read_apply]
  show V c main_arg9 _ = V c main_arg9 _
  congr 1
  funext a; apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- The second bias row is staged whole at every point. -/
theorem blk6_apply (c : Dev nD) (t : Fin cfg1.N) (z : Fin 1) (q : Fin 128) :
    iblk1 V c 6 t (ix2 z q) = V c main_v14 (ix2 z q) := by
  obtain ⟨-, -, -, -, -, -, -, -, -, -, -, -, e0, e1, -⟩ := idx_facts t
  unfold iblk1
  rw [View.read_apply]
  show V c main_v14 _ = V c main_v14 _
  congr 1
  funext a; apply Fin.ext
  match a with
  | ⟨0, _⟩ => show win1_6.index t (0 : Fin 2) * 1 + 1 * z.val = z.val; rw [e0]; omega
  | ⟨1, _⟩ => show win1_6.index t (1 : Fin 2) * 128 + 1 * q.val = q.val; rw [e1]; omega

/-- Entry (p, q) of the result's block t is entry (5120 t + p, q) of the result array. -/
theorem emb7_apply (t : Fin cfg1.N) (p : Fin 5120) (q : Fin 128) :
    (((cfg1.win 7).blk t).view.emb (ix2 p q) : S640000x128.Idx) = ix2 (edgeOf t p) q := by
  obtain ⟨-, -, -, -, -, -, -, -, -, -, -, -, -, -, e0, e1⟩ := idx_facts t
  funext a; apply Fin.ext
  match a with
  | ⟨0, _⟩ => show win1_7.index t (0 : Fin 2) * 5120 + 1 * p.val = t.val * 5120 + p.val; rw [e0]; omega
  | ⟨1, _⟩ => show win1_7.index t (1 : Fin 2) * 128 + 1 * q.val = q.val; rw [e1]; omega

/-- The edge lengths recast as one column: entry (e, 0) of the column is length e. -/
theorem col_apply (r : FVec Ideal Cert.Spec.SEv .f32) (e : Fin 640000) (z : Fin 1) :
    shapeCast S640000x1 r shapeCasts_S640000_S640000x1 (ix2 e z) = r (ix1 e) :=
  shapeCast_apply r shapeCasts_S640000_S640000x1 (ix2 e z) (ix1 e) (by
    rw [Shape.rowMajor_val_one, Shape.rowMajor_val_two]
    have hz : z.val = 0 := by have := z.isLt; omega
    show e.val = e.val * 1 + z.val
    omega)

/-- A bias recast as one row: entry (0, k) of the row is the bias's entry k. -/
theorem row_apply (b : FVec Ideal Cert.Spec.SF .f32) (z : Fin 1) (k : Fin 128) :
    shapeCast S1x128 b shapeCasts_S128_S1x128 (ix2 z k) = b (ix1 k) :=
  shapeCast_apply b shapeCasts_S128_S1x128 (ix2 z k) (ix1 k) (by
    rw [Shape.rowMajor_val_one, Shape.rowMajor_val_two]
    have hz : z.val = 0 := by have := z.isLt; omega
    show k.val = z.val * 128 + k.val
    omega)

/-- WHAT POINT t WRITES BACK is block t of the messages array: at entry (p, q) the block's arithmetic reads the attribute row, the
    length and the gathered entry of edge 5120 t + p and the whole weights and biases, and its last product is the plain
    expression's with the factors exchanged. -/
theorem flushed_eq (c : Dev nD) (r : FVec Ideal Cert.Spec.SEv .f32) (b1 b2 : FVec Ideal Cert.Spec.SF .f32)
    (h12 : V c main_v12 = shapeCast S640000x1 r shapeCasts_S640000_S640000x1)
    (h13 : V c main_v13 = shapeCast S1x128 b1 shapeCasts_S128_S1x128)
    (h14 : V c main_v14 = shapeCast S1x128 b2 shapeCasts_S128_S1x128) (t : Fin cfg1.N) :
    (dat1 (F := Ideal) V c).flushed 7 t
      = ((cfg1.win 7).blk t).view.read (Elt Ideal)
          (Cert.Spec.msgs (V c main_arg3) r (V c main_v11) (V c main_arg7) b1 (V c main_arg9) b2) := by
  show (cfg1.win 7).cut (grid1.coords t) ((dat1 V c).after 7 t) = _
  rw [after1_7]
  unfold out1_7
  rw [View.canon_unit_zero hz]
  simp only [View.ld_unit_zero (S := S5120x64) hz, View.ld_unit_zero (S := S64x128) hz, View.ld_unit_zero (S := S1x128) hz,
    View.ld_unit_zero (S := S128x128) hz, View.ld_unit_zero (S := S5120x1) hz, View.ld_unit_zero (S := S5120x128) hz]
  funext j
  obtain ⟨p, q, rfl⟩ : ∃ (p : Fin 5120) (q : Fin 128), j = ix2 p q := ⟨j 0, j 1, eq_ix2 j⟩
  rw [View.read_apply]
  show k1_pay1 _ _ (ix2 p q)
    = Cert.Spec.msgs (V c main_arg3) r (V c main_v11) (V c main_arg7) b1 (V c main_arg9) b2 (((cfg1.win 7).blk t).view.emb (ix2 p q))
  rw [emb7_apply, msgs_apply]
  refine (pay_entry _ _ _ _ _ _ _ p q (fun j => V c main_arg3 (ix2 (edgeOf t p) j)) (r (ix1 (edgeOf t p)))
    (V c main_v11 (ix2 (edgeOf t p) q)) (V c main_arg7) (fun k => b1 (ix1 k)) (V c main_arg9) (b2 (ix1 q))
    ?_ ?_ ?_ ?_ ?_ ?_ ?_).trans (mul_comm _ _)
  · exact fun j => blk0_apply V c t p j
  · exact (blk1_apply V c t p _).trans ((congrFun h12 _).trans (col_apply r _ _))
  · exact blk2_apply V c t p q
  · exact fun j k => blk3_apply V c t j k
  · exact fun k => (blk4_apply V c t _ k).trans ((congrFun h13 _).trans (row_apply b1 _ k))
  · exact fun k q' => blk5_apply V c t k q'
  · exact (blk6_apply V c t _ q).trans ((congrFun h14 _).trans (row_apply b2 _ q))

/-- An index of the result array is in point t's block iff each coordinate is in the block's range on its axis. -/
theorem mem_blk (t : Fin cfg1.N) (i : S640000x128.Idx) :
    i ∈ ((cfg1.win 7).blk t).view.set
      ↔ ∀ a : Fin 2, win1_7.index t a * S5120x128.size a ≤ (i a).val ∧ (i a).val < win1_7.index t a * S5120x128.size a + S5120x128.size a := by
  show i ∈ ((View.whole main_v15).slice (win1_7.rect t)).set ↔ _
  rw [View.set_slice_whole, Rect.mem_set_unit]
  exact Iff.rfl

/-- The blocks tile the edges: row e of the result array is in the block of point e / 5120, which writes back. -/
theorem cover (i : S640000x128.Idx) :
    ∃ t : Fin cfg1.N, (cfg1.win 7).flush t = true ∧ i ∈ ((cfg1.win 7).blk t).view.set := by
  have hN : cfg1.N = 125 := N_1
  have hi0 : (i 0).val < 640000 := (i 0).isLt
  have hi1 : (i 1).val < 128 := (i 1).isLt
  have hlt : (i 0).val / 5120 < cfg1.N := by rw [hN]; omega
  obtain ⟨-, -, -, -, -, -, -, -, -, -, -, -, -, -, e0, e1⟩ := idx_facts ⟨(i 0).val / 5120, hlt⟩
  have e0' : win1_7.index ⟨(i 0).val / 5120, hlt⟩ (0 : Fin 2) = (i 0).val / 5120 := e0
  refine ⟨⟨(i 0).val / 5120, hlt⟩, flush1_7 _, ?_⟩
  rw [mem_blk]
  intro a
  match a with
  | ⟨0, _⟩ =>
    show win1_7.index ⟨(i 0).val / 5120, hlt⟩ (0 : Fin 2) * 5120 ≤ (i 0).val
      ∧ (i 0).val < win1_7.index ⟨(i 0).val / 5120, hlt⟩ (0 : Fin 2) * 5120 + 5120
    rw [e0']; omega
  | ⟨1, _⟩ =>
    show win1_7.index ⟨(i 0).val / 5120, hlt⟩ (1 : Fin 2) * 128 ≤ (i 1).val
      ∧ (i 1).val < win1_7.index ⟨(i 0).val / 5120, hlt⟩ (1 : Fin 2) * 128 + 128
    rw [e1]; omega

/-- After the second region its result array holds the messages: the edge lengths reach the region as one column and the
    two biases as one row each (h12, h13, h14: what the host wrote before the region). -/
theorem final (c : Dev nD) (r : FVec Ideal Cert.Spec.SEv .f32) (b1 b2 : FVec Ideal Cert.Spec.SF .f32)
    (h12 : V c main_v12 = shapeCast S640000x1 r shapeCasts_S640000_S640000x1)
    (h13 : V c main_v13 = shapeCast S1x128 b1 shapeCasts_S128_S1x128)
    (h14 : V c main_v14 = shapeCast S1x128 b2 shapeCasts_S128_S1x128) :
    (dat1 (F := Ideal) V c).arrAt 7 cfg1.N
      = Cert.Spec.msgs (V c main_arg3) r (V c main_v11) (V c main_arg7) b1 (V c main_arg9) b2 :=
  (dat1 (F := Ideal) V c).arrAt_eq_of_cover 7 (Cert.Spec.msgs (V c main_arg3) r (V c main_v11) (V c main_arg7) b1 (V c main_arg9) b2)
    (fun t _ => flushed_eq V c r b1 b2 h12 h13 h14 t) cover

end Cert.KernelIdeal.FilterRegion

end
-- ==== Proof.FinalizeRegion.lean ====
/-
  The node stage, block by block. Grid point t stages rows 2000 t .. 2000 t + 1999 of the aggregated features and the
  two weight matrices and biases whole, and writes rows 2000 t .. of tanh (h2 . W2 + c2) . W3 + c3. The blocks tile the
  nodes, so the result array is that expression of the whole arrays entry by entry.
-/
import proofs.«164510_j31559419691086_1_alg».proof.Proof.Gen.KernelIdeal.Frame
import proofs.«164510_j31559419691086_1_alg».proof.Proof.Spec
import proofs.«164510_j31559419691086_1_alg».proof.Proof.LibPlainDot
import proofs.«164510_j31559419691086_1_alg».proof.Proof.LibHostDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FinalizeRegion

open Cert.KernelIdeal Cert.KernelIdeal.Gen

variable (V : (c : Dev nD) → (b : Ref sig .tc) → Buf (Elt Ideal) ((c : Thread nD τ).loc b))

/-- The zero offsets of a whole-buffer rectangle. -/
theorem zeroOff : (![0, 0] : Fin 2 → Nat) = fun _ => 0 := funext fun a => by fin_cases a <;> rfl

/-! ## One dense layer at an entry -/

/-- A 2000 x 128 by 128 x 128 product into the zero accumulator plus a one-row bias laid down the rows, read at (p, q):
    the sum over k of a (p, k) * w (k, q), plus the bias's entry q. -/
theorem dense_apply {φ₁ φ₂ : FTy} (a : FVec Ideal ⟨2, ![2000, 128]⟩ φ₁) (w : FVec Ideal ⟨2, ![128, 128]⟩ φ₂)
    (b : FVec Ideal ⟨2, ![1, 128]⟩ .f32) (hb : (⟨2, ![1, 128]⟩ : Shape).Broadcasts ⟨2, ![2000, 128]⟩)
    (p : Fin 2000) (q : Fin 128) :
    addf (matmul (DotDims.plain 2000 128 128) none a w (constant (F := Ideal) ⟨2, ![2000, 128]⟩ .f32 0x00000000#32))
        (broadcastTo ⟨2, ![2000, 128]⟩ b hb) (ix2 p q)
      = (∑ k : Fin 128, a (ix2 p k) * w (ix2 k q)) + b (ix2 ⟨0, Nat.one_pos⟩ q) := by
  show FloatOps.addf (matmul (DotDims.plain 2000 128 128) none a w (constant (F := Ideal) ⟨2, ![2000, 128]⟩ .f32 0x00000000#32) (ix2 p q))
      (broadcastTo ⟨2, ![2000, 128]⟩ b hb (ix2 p q)) = _
  rw [Ideal.addf_def, Cert.LibPlainDot.matmul_plain_apply, Cert.LibPlainDot.bcastRow_apply]

/-- The block's arithmetic with the identity recasts dropped and the product's dimension record in its plain form. -/
theorem pay_eq (x0 : FVec Ideal S2000x128 .f32) (x1 : FVec Ideal S128x128 .f32) (x2 : FVec Ideal S1x128 .f32)
    (x3 : FVec Ideal S128x128 .f32) (x4 : FVec Ideal S1x128 .f32) :
    k2_pay1 (F := Ideal) x0 x1 x2 x3 x4
      = addf (matmul (DotDims.plain 2000 128 128) none
          (truncf .bf16 (tanh (addf (matmul (DotDims.plain 2000 128 128) none (truncf .bf16 x0 bitsLt_bf16_f32) (truncf .bf16 x1 bitsLt_bf16_f32)
              (constant (F := Ideal) ⟨2, ![2000, 128]⟩ .f32 0x00000000#32))
            (broadcastTo ⟨2, ![2000, 128]⟩ x2 broadcasts_S1x128_S2000x128))) bitsLt_bf16_f32)
          (truncf .bf16 x3 bitsLt_bf16_f32) (constant (F := Ideal) ⟨2, ![2000, 128]⟩ .f32 0x00000000#32))
        (broadcastTo ⟨2, ![2000, 128]⟩ x4 broadcasts_S1x128_S2000x128) := by
  unfold k2_pay1
  simp only [shapeCast_self]
  rfl

/-- The block's arithmetic at (p, q): both layers as sums, the rounding to the narrow type being the identity on the
    extended reals. -/
theorem pay_apply (x0 : FVec Ideal S2000x128 .f32) (x1 : FVec Ideal S128x128 .f32) (x2 : FVec Ideal S1x128 .f32)
    (x3 : FVec Ideal S128x128 .f32) (x4 : FVec Ideal S1x128 .f32) (p : Fin 2000) (q : Fin 128) :
    k2_pay1 (F := Ideal) x0 x1 x2 x3 x4 (ix2 p q)
      = (∑ k : Fin 128, Ideal.tanh ((∑ j : Fin 128, x0 (ix2 p j) * x1 (ix2 j k)) + x2 (ix2 ⟨0, Nat.one_pos⟩ k)) * x3 (ix2 k q))
        + x4 (ix2 ⟨0, Nat.one_pos⟩ q) := by
  rw [pay_eq, dense_apply]
  congr 1
  refine Finset.sum_congr rfl fun k _ => ?_
  show FloatOps.truncf .bf16 bitsLt_bf16_f32 (FloatOps.tanh
      (addf (matmul (DotDims.plain 2000 128 128) none (truncf .bf16 x0 bitsLt_bf16_f32) (truncf .bf16 x1 bitsLt_bf16_f32)
          (constant (F := Ideal) ⟨2, ![2000, 128]⟩ .f32 0x00000000#32))
        (broadcastTo ⟨2, ![2000, 128]⟩ x2 broadcasts_S1x128_S2000x128) (ix2 p k)))
    * FloatOps.truncf .bf16 bitsLt_bf16_f32 (x3 (ix2 k q)) = _
  rw [Ideal.truncf_def, Ideal.truncf_def, Ideal.tanh_def, dense_apply]
  rfl

/-! ## The whole-array expression at an entry -/

/-- A bias vector laid along every node's row, read at (r, q): the vector's entry q. -/
theorem rowN_apply (b : FVec Ideal Cert.Spec.SF .f32) (r : Fin 20000) (q : Fin 128) :
    Cert.Spec.rowN b (ix2 r q) = b (ix1 q) := by
  unfold Cert.Spec.rowN
  rw [broadcastInDim_apply ![0, 1] Cert.Spec.b_1F_N _ (ix2 r q) (ix2 ⟨0, Nat.one_pos⟩ q) (fun a => match a with
      | ⟨0, _⟩ => by show (0 : Nat) = if (1 : Nat) = 1 then 0 else r.val; rw [if_pos rfl]
      | ⟨1, _⟩ => by show q.val = if (128 : Nat) = 1 then 0 else q.val; rw [if_neg (by decide)]),
    broadcastInDim_apply ![1] Cert.Spec.b_F_1F b (ix2 ⟨0, Nat.one_pos⟩ q) (ix1 q) (fun a => match a with
      | ⟨0, _⟩ => by show q.val = if (128 : Nat) = 1 then 0 else q.val; rw [if_neg (by decide)])]

/-- The node stage at (r, q): the sum over k of tanh ((sum over j of h (r, j) * w2 (j, k)) + c2 k) * w3 (k, q), plus c3 q. -/
theorem finalize_apply (h : FVec Ideal Cert.Spec.SN .f32) (w2 : FVec Ideal Cert.Spec.SFF .f32) (c2 : FVec Ideal Cert.Spec.SF .f32)
    (w3 : FVec Ideal Cert.Spec.SFF .f32) (c3 : FVec Ideal Cert.Spec.SF .f32) (r : Fin 20000) (q : Fin 128) :
    Cert.Spec.finalize h w2 c2 w3 c3 (ix2 r q)
      = (∑ k : Fin 128, Ideal.tanh ((∑ j : Fin 128, h (ix2 r j) * w2 (ix2 j k)) + c2 (ix1 k)) * w3 (ix2 k q)) + c3 (ix1 q) := by
  unfold Cert.Spec.finalize
  show FloatOps.addf (Host.dotGeneral (F := Ideal) (DotDims.plain 20000 128 128) none
      (Host.tanh (F := Ideal) (addf (Host.dotGeneral (F := Ideal) (DotDims.plain 20000 128 128) none h w2) (Cert.Spec.rowN c2))) w3 (ix2 r q))
    (Cert.Spec.rowN c3 (ix2 r q)) = _
  rw [Ideal.addf_def, Cert.LibHostDot.hostDot_plain_apply, rowN_apply]
  congr 1
  refine Finset.sum_congr rfl fun k _ => ?_
  show FloatOps.hostUnary .tanh (FloatOps.addf (Host.dotGeneral (F := Ideal) (DotDims.plain 20000 128 128) none h w2 (ix2 r k))
      (Cert.Spec.rowN c2 (ix2 r k))) * w3 (ix2 k q) = _
  rw [Ideal.hostUnary_tanh_def, Ideal.addf_def, Cert.LibHostDot.hostDot_plain_apply, rowN_apply]

/-- A vector recast as one row, read at (0, k): the vector's entry k. -/
theorem asRow_apply (b : FVec Ideal Cert.Spec.SF .f32) (k : Fin 128) :
    shapeCast S1x128 b shapeCasts_S128_S1x128 (ix2 ⟨0, Nat.one_pos⟩ k) = b (ix1 k) :=
  shapeCast_apply b shapeCasts_S128_S1x128 (ix2 ⟨0, Nat.one_pos⟩ k) (ix1 k) (by
    rw [Shape.rowMajor_val_one, Shape.rowMajor_val_two]
    show k.val = 0 * 128 + k.val
    omega)

/-! ## The blocks -/

/-- The grid has ten points. -/
theorem gridN : cfg2.N = 10 := by decide

/-- The index maps over the grid: the two row-blocked windows sit at block (t, 0), the four whole ones at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Point t's block of the aggregated features at (p, j) is the array's entry (2000 t + p, j). -/
theorem featBlk_apply (c : Dev nD) (t : Fin cfg2.N) (p : Fin 2000) (j : Fin 128) (r : Fin 20000)
    (hr : r.val = 2000 * t.val + p.val) :
    (iblk2 (F := Ideal) V c 0 t : FVec Ideal S2000x128 .f32) (ix2 p j) = (V c main_v68 : FVec Ideal Cert.Spec.SN .f32) (ix2 r j) := by
  obtain ⟨e0, e1, -⟩ := idx_facts t
  show V c main_v68 (((cfg2.win 0).blk t).view.emb (ix2 p j)) = V c main_v68 (ix2 r j)
  refine congrArg (V c main_v68) (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * j.val = j.val; rw [e1]; omega

/-- Every point's block of the first weight matrix is the matrix. -/
theorem w2Blk_apply (c : Dev nD) (t : Fin cfg2.N) (j k : Fin 128) :
    (iblk2 (F := Ideal) V c 1 t : FVec Ideal S128x128 .f32) (ix2 j k) = (V c main_arg12 : FVec Ideal Cert.Spec.SFF .f32) (ix2 j k) := by
  obtain ⟨-, -, e0, e1, -⟩ := idx_facts t
  show V c main_arg12 (((cfg2.win 1).blk t).view.emb (ix2 j k)) = V c main_arg12 (ix2 j k)
  refine congrArg (V c main_arg12) (funext fun a => Fin.ext ?_)
  match a with
  | ⟨0, _⟩ => show win2_1.index t (0 : Fin 2) * 128 + 1 * j.val = j.val; rw [e0]; omega
  | ⟨1, _⟩ => show win2_1.index t (1 : Fin 2) * 128 + 1 * k.val = k.val; rw [e1]; omega

/-- Every point's block of the first bias row is the row. -/
theorem c2Blk_apply (c : Dev nD) (t : Fin cfg2.N) (k : Fin 128) :
    (iblk2 (F := Ideal) V c 2 t : FVec Ideal S1x128 .f32) (ix2 ⟨0, Nat.one_pos⟩ k)
      = (V c main_v69 : FVec Ideal S1x128 .f32) (ix2 ⟨0, Nat.one_pos⟩ k) := by
  obtain ⟨-, -, -, -, e0, e1, -⟩ := idx_facts t
  show V c main_v69 (((cfg2.win 2).blk t).view.emb (ix2 ⟨0, Nat.one_pos⟩ k)) = V c main_v69 (ix2 ⟨0, Nat.one_pos⟩ k)
  refine congrArg (V c main_v69) (funext fun a => Fin.ext ?_)
  match a with
  | ⟨0, _⟩ => show win2_2.index t (0 : Fin 2) * 1 + 1 * 0 = 0; rw [e0]
  | ⟨1, _⟩ => show win2_2.index t (1 : Fin 2) * 128 + 1 * k.val = k.val; rw [e1]; omega

/-- Every point's block of the second weight matrix is the matrix. -/
theorem w3Blk_apply (c : Dev nD) (t : Fin cfg2.N) (k q : Fin 128) :
    (iblk2 (F := Ideal) V c 3 t : FVec Ideal S128x128 .f32) (ix2 k q) = (V c main_arg14 : FVec Ideal Cert.Spec.SFF .f32) (ix2 k q) := by
  obtain ⟨-, -, -, -, -, -, e0, e1, -⟩ := idx_facts t
  show V c main_arg14 (((cfg2.win 3).blk t).view.emb (ix2 k q)) = V c main_arg14 (ix2 k q)
  refine congrArg (V c main_arg14) (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- Every point's block of the second bias row is the row. -/
theorem c3Blk_apply (c : Dev nD) (t : Fin cfg2.N) (q : Fin 128) :
    (iblk2 (F := Ideal) V c 4 t : FVec Ideal S1x128 .f32) (ix2 ⟨0, Nat.one_pos⟩ q)
      = (V c main_v70 : FVec Ideal S1x128 .f32) (ix2 ⟨0, Nat.one_pos⟩ q) := by
  obtain ⟨-, -, -, -, -, -, -, -, e0, e1, -⟩ := idx_facts t
  show V c main_v70 (((cfg2.win 4).blk t).view.emb (ix2 ⟨0, Nat.one_pos⟩ q)) = V c main_v70 (ix2 ⟨0, Nat.one_pos⟩ q)
  refine congrArg (V c main_v70) (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

/-- A block's arithmetic at (p, q) against the whole expression at (r, q): equal once the block's features row p is the
    array's row r, the weight blocks are the matrices and the bias rows are the bias vectors. -/
theorem stage_ext (x0 : FVec Ideal S2000x128 .f32) (x1 : FVec Ideal S128x128 .f32) (x2 : FVec Ideal S1x128 .f32)
    (x3 : FVec Ideal S128x128 .f32) (x4 : FVec Ideal S1x128 .f32)
    (h : FVec Ideal Cert.Spec.SN .f32) (w2 : FVec Ideal Cert.Spec.SFF .f32) (c2 : FVec Ideal Cert.Spec.SF .f32)
    (w3 : FVec Ideal Cert.Spec.SFF .f32) (c3 : FVec Ideal Cert.Spec.SF .f32) (p : Fin 2000) (q : Fin 128) (r : Fin 20000)
    (h0 : ∀ j : Fin 128, x0 (ix2 p j) = h (ix2 r j))
    (h1 : ∀ j k : Fin 128, x1 (ix2 j k) = w2 (ix2 j k))
    (h2 : ∀ k : Fin 128, x2 (ix2 ⟨0, Nat.one_pos⟩ k) = c2 (ix1 k))
    (h3 : ∀ k : Fin 128, x3 (ix2 k q) = w3 (ix2 k q))
    (h4 : x4 (ix2 ⟨0, Nat.one_pos⟩ q) = c3 (ix1 q)) :
    k2_pay1 (F := Ideal) x0 x1 x2 x3 x4 (ix2 p q) = Cert.Spec.finalize h w2 c2 w3 c3 (ix2 r q) := by
  rw [pay_apply, finalize_apply, h4]
  refine congrArg (· + c3 (ix1 q)) (Finset.sum_congr rfl fun k _ => ?_)
  rw [h2 k, h3 k]
  refine congrArg (fun s => Ideal.tanh (s + c2 (ix1 k)) * w3 (ix2 k q)) (Finset.sum_congr rfl fun j _ => ?_)
  rw [h0 j, h1 j k]

/-- WHAT POINT t WRITES BACK is block t of the node stage of the whole arrays: entry (p, q) of the block's arithmetic and
    entry (2000 t + p, q) of the whole expression are the same double sum, block reads and bias rows unfolded. -/
theorem flushed_eq (c : Dev nD) (c2 c3 : FVec Ideal Cert.Spec.SF .f32)
    (h69 : V c main_v69 = shapeCast S1x128 c2 shapeCasts_S128_S1x128)
    (h70 : V c main_v70 = shapeCast S1x128 c3 shapeCasts_S128_S1x128) (t : Fin cfg2.N) :
    (dat2 (F := Ideal) V c).flushed 5 t
      = ((cfg2.win 5).blk t).view.read (Elt Ideal)
          (Cert.Spec.finalize (V c main_v68) (V c main_arg12) c2 (V c main_arg14) c3) := by
  show (cfg2.win 5).cut (grid2.coords t) ((dat2 (F := Ideal) V c).after 5 t) = _
  rw [after2_5]
  unfold out2_5
  rw [View.canon_unit_zero zeroOff]
  simp only [View.ld_unit_zero (S := S2000x128) zeroOff, View.ld_unit_zero (S := S128x128) zeroOff,
    View.ld_unit_zero (S := S1x128) zeroOff]
  obtain ⟨-, -, -, -, -, -, -, -, -, -, e0, e1⟩ := idx_facts t
  have ht : t.val < 10 := gridN ▸ t.isLt
  funext y
  obtain ⟨p, q, rfl⟩ : ∃ (p : Fin 2000) (q : Fin 128), y = ix2 p q := ⟨y 0, y 1, eq_ix2 y⟩
  have hp : p.val < 2000 := p.isLt
  have hr : 2000 * t.val + p.val < 20000 := by omega
  show _ = Cert.Spec.finalize (V c main_v68) (V c main_arg12) c2 (V c main_arg14) c3 (((cfg2.win 5).blk t).view.emb (ix2 p q))
  have hemb : ((cfg2.win 5).blk t).view.emb (ix2 p q) = ix2 (⟨2000 * t.val + p.val, hr⟩ : Fin 20000) q := by
    funext a; apply Fin.ext
    match a with
    | ⟨0, _⟩ => show win2_5.index t (0 : Fin 2) * 2000 + 1 * p.val = 2000 * t.val + p.val; rw [e0]; omega
    | ⟨1, _⟩ => show win2_5.index t (1 : Fin 2) * 128 + 1 * q.val = q.val; rw [e1]; omega
  rw [hemb]
  exact stage_ext (iblk2 (F := Ideal) V c 0 t) (iblk2 (F := Ideal) V c 1 t) (iblk2 (F := Ideal) V c 2 t)
    (iblk2 (F := Ideal) V c 3 t) (iblk2 (F := Ideal) V c 4 t) (V c main_v68) (V c main_arg12) c2 (V c main_arg14) c3 p q
    ⟨2000 * t.val + p.val, hr⟩
    (fun j => featBlk_apply V c t p j ⟨2000 * t.val + p.val, hr⟩ rfl)
    (fun j k => w2Blk_apply V c t j k)
    (fun k => (c2Blk_apply V c t k).trans ((congrFun h69 (ix2 ⟨0, Nat.one_pos⟩ k)).trans (asRow_apply c2 k)))
    (fun k => w3Blk_apply V c t k q)
    ((c3Blk_apply V c t q).trans ((congrFun h70 (ix2 ⟨0, Nat.one_pos⟩ q)).trans (asRow_apply c3 q)))

/-- An index of the result array is in point t's block iff each coordinate is in the block's range on its axis. -/
theorem mem_blk (t : Fin cfg2.N) (i : S20000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v71).slice (win2_5.rect t)).set ↔ _
  rw [View.set_slice_whole, Rect.mem_set_unit]
  exact Iff.rfl

/-- The ten row blocks tile the nodes: row r is in block r / 2000. -/
theorem cover (i : S20000x128.Idx) :
    ∃ t : Fin cfg2.N, (cfg2.win 5).flush t = true ∧ i ∈ ((cfg2.win 5).blk t).view.set := by
  have hi0 : (i 0).val < 20000 := (i 0).isLt
  have hi1 : (i 1).val < 128 := (i 1).isLt
  have hlt : (i 0).val / 2000 < cfg2.N := by rw [gridN]; omega
  obtain ⟨-, -, -, -, -, -, -, -, -, -, e0, e1⟩ := idx_facts ⟨(i 0).val / 2000, hlt⟩
  have e0' : win2_5.index ⟨(i 0).val / 2000, hlt⟩ (0 : Fin 2) = (i 0).val / 2000 := e0
  refine ⟨⟨(i 0).val / 2000, hlt⟩, flush2_5 _, ?_⟩
  rw [mem_blk]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e0']; omega
  | ⟨1, _⟩ =>
    show win2_5.index ⟨(i 0).val / 2000, hlt⟩ (1 : Fin 2) * 128 ≤ (i 1).val
      ∧ (i 1).val < win2_5.index ⟨(i 0).val / 2000, hlt⟩ (1 : Fin 2) * 128 + 128
    rw [e1]; omega

/-- After the third region its result array holds the block's tail of the aggregated features: the two biases reach the
    region as one row each (h69, h70: what the host wrote before the region). -/
theorem final (c : Dev nD) (c2 c3 : FVec Ideal Cert.Spec.SF .f32)
    (h69 : V c main_v69 = shapeCast S1x128 c2 shapeCasts_S128_S1x128)
    (h70 : V c main_v70 = shapeCast S1x128 c3 shapeCasts_S128_S1x128) :
    (dat2 (F := Ideal) V c).arrAt 5 cfg2.N
      = Cert.Spec.finalize (V c main_v68) (V c main_arg12) c2 (V c main_arg14) c3 := by
  exact (dat2 (F := Ideal) V c).arrAt_eq_of_cover 5 _ (fun t _ => flushed_eq V c c2 c3 h69 h70 t) cover

end Cert.KernelIdeal.FinalizeRegion

end
-- ==== Proof.KernelValue.lean ====
/-
  The contents of the result array after the run, read back through the program's five segments.

  The run's last boundary gives the result array the third region's write-backs over what the second host stretch left.
  Going back: the third region turns the aggregated features h2 into tanh (h2 . W2 + c2) . W3 + c3; the second host
  stretch builds h2 = scatter-add of the messages by target node + the sequence convolution of h, from the second
  region's messages and the first region's h; the second region's messages are h[src] times the filter rows scaled by the
  cutoff, h[src] gathered by the first host stretch; the first region's h is x . W1. No host operation and no region writes
  an argument array, so every operand read on the way is the launch memory's. Stage by stage the host operations are
  the reference's own, so the value is the reference's result term of the same sixteen arrays.
-/
import proofs.«164510_j31559419691086_1_alg».proof.Proof.Gen.KernelIdeal.Frame
import proofs.«164510_j31559419691086_1_alg».proof.Proof.Gen.ReferenceIdeal.Read
import proofs.«164510_j31559419691086_1_alg».proof.Proof.Spec
import proofs.«164510_j31559419691086_1_alg».proof.Proof.Bridge
import proofs.«164510_j31559419691086_1_alg».proof.Proof.Lin1Region
import proofs.«164510_j31559419691086_1_alg».proof.Proof.FilterRegion
import proofs.«164510_j31559419691086_1_alg».proof.Proof.FinalizeRegion
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen Cert.ReferenceIdeal.Read

variable (m : (ℓ : Loc nD τ sig) → Buf (Elt Ideal) ℓ) (ρ : Dev nD → PrngReg)

/-! ## After the first region -/

/-- A buffer the first region does not stage is as launched after it. -/
theorem W1_kept (c : Dev nD) (b : Ref sig .tc) (hb : ∀ w, Pipeline.arrRef spec0 w ≠ b) :
    W1 m ρ c (Proc.devRef .tc b) = m ((c : Thread nD τ).loc b) :=
  (W1_of_ne m ρ c b hb).trans rfl

/-- The node features, an input of the first region, are as launched after it. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The first weight matrix, an input of the first region, is as launched after it. -/
theorem W1_arg6 (c : Dev nD) : W1 m ρ c (Proc.devRef .tc main_arg6) = m ((c : Thread nD τ).loc main_arg6) :=
  (W1_arr m ρ c 1).trans (((dat0 (V0 m ρ) c).arrAt_in 1 rfl _).trans (A_eq0 (V0 m ρ) c 1))

/-- h = x . W1, as the reference's first product. -/
theorem W1_h (c : Dev nD) :
    W1 m ρ c (Proc.devRef .tc main_v0) = val_main_v25 (F := Ideal) (m ((c : Thread nD τ).loc main_arg0)) (m ((c : Thread nD τ).loc main_arg6)) :=
  (W1_arr m ρ c 2).trans ((Cert.KernelIdeal.Lin1Region.final (V0 m ρ) c).trans (Cert.Bridge.lin1_eq _ _))

/-! ## After the first host stretch -/

/-- The gathered source rows h[src] are the reference's. -/
theorem V2_hg (c : Dev nD) :
    V2 m ρ c main_v11 = val_main_v36 (F := Ideal) (m ((c : Thread nD τ).loc main_arg0)) (m ((c : Thread nD τ).loc main_arg1)) (m ((c : Thread nD τ).loc main_arg6)) := by
  show StableHlo.after hostOps1 (W1 m ρ c) (Proc.devRef .tc main_v11) = _
  after_results
  rw [W1_h, W1_kept m ρ c main_arg1 (by decide)]
  rfl

/-- The edge attributes reach the second region as launched. -/
theorem V2_arg3 (c : Dev nD) : V2 m ρ c main_arg3 = m ((c : Thread nD τ).loc main_arg3) := by
  show StableHlo.after hostOps1 (W1 m ρ c) (Proc.devRef .tc main_arg3) = _
  after_results
  exact W1_kept m ρ c main_arg3 (by decide)

/-- The first filter matrix reaches the second region as launched. -/
theorem V2_arg7 (c : Dev nD) : V2 m ρ c main_arg7 = m ((c : Thread nD τ).loc main_arg7) := by
  show StableHlo.after hostOps1 (W1 m ρ c) (Proc.devRef .tc main_arg7) = _
  after_results
  exact W1_kept m ρ c main_arg7 (by decide)

/-- The second filter matrix reaches the second region as launched. -/
theorem V2_arg9 (c : Dev nD) : V2 m ρ c main_arg9 = m ((c : Thread nD τ).loc main_arg9) := by
  show StableHlo.after hostOps1 (W1 m ρ c) (Proc.devRef .tc main_arg9) = _
  after_results
  exact W1_kept m ρ c main_arg9 (by decide)

/-- The edge lengths reach the second region as one column. -/
theorem V2_len (c : Dev nD) :
    V2 m ρ c main_v12 = shapeCast S640000x1 (m ((c : Thread nD τ).loc main_arg2)) shapeCasts_S640000_S640000x1 := by
  show StableHlo.after hostOps1 (W1 m ρ c) (Proc.devRef .tc main_v12) = _
  after_results
  rw [W1_kept m ρ c main_arg2 (by decide)]
  rfl

/-- The first filter bias reaches the second region as one row. -/
theorem V2_b1 (c : Dev nD) :
    V2 m ρ c main_v13 = shapeCast S1x128 (m ((c : Thread nD τ).loc main_arg8)) shapeCasts_S128_S1x128 := by
  show StableHlo.after hostOps1 (W1 m ρ c) (Proc.devRef .tc main_v13) = _
  after_results
  rw [W1_kept m ρ c main_arg8 (by decide)]
  rfl

/-- The second filter bias reaches the second region as one row. -/
theorem V2_b2 (c : Dev nD) :
    V2 m ρ c main_v14 = shapeCast S1x128 (m ((c : Thread nD τ).loc main_arg10)) shapeCasts_S128_S1x128 := by
  show StableHlo.after hostOps1 (W1 m ρ c) (Proc.devRef .tc main_v14) = _
  after_results
  rw [W1_kept m ρ c main_arg10 (by decide)]
  rfl

/-! ## After the second region -/

/-- The messages are the reference's. -/
theorem W3_msgs (c : Dev nD) :
    W3 m ρ c (Proc.devRef .tc main_v15) = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W3_arr m ρ c 7).trans ((Cert.KernelIdeal.FilterRegion.final (V2 m ρ) c (m ((c : Thread nD τ).loc main_arg2)) (m ((c : Thread nD τ).loc main_arg8)) (m ((c : Thread nD τ).loc main_arg10))
    (V2_len m ρ c) (V2_b1 m ρ c) (V2_b2 m ρ c)).trans ?_)
  rw [V2_hg, V2_arg3, V2_arg7, V2_arg9]
  exact Cert.Bridge.msgs_eq _ _ _ _ _ _ _ _ _

/-- The target nodes of the edges, cut out of the edge list by the first host stretch and untouched since. -/
theorem W3_dst (c : Dev nD) :
    W3 m ρ c (Proc.devRef .tc main_v4) = val_main_v29 (F := Ideal) (m ((c : Thread nD τ).loc main_arg1)) := by
  refine (W3_of_ne m ρ c main_v4 (by decide)).trans ?_
  show StableHlo.after hostOps1 (W1 m ρ c) (Proc.devRef .tc main_v4) = _
  after_results
  rw [W1_kept m ρ c main_arg1 (by decide)]
  rfl

/-- h is still the first product after the second region. -/
theorem W3_h (c : Dev nD) :
    W3 m ρ c (Proc.devRef .tc main_v0) = val_main_v25 (F := Ideal) (m ((c : Thread nD τ).loc main_arg0)) (m ((c : Thread nD τ).loc main_arg6)) := by
  refine (W3_of_ne m ρ c main_v0 (by decide)).trans ?_
  show StableHlo.after hostOps1 (W1 m ρ c) (Proc.devRef .tc main_v0) = _
  after_results
  exact W1_h m ρ c

/-- The atom types are as launched after the second region. -/
theorem W3_arg4 (c : Dev nD) : W3 m ρ c (Proc.devRef .tc main_arg4) = m ((c : Thread nD τ).loc main_arg4) := by
  refine (W3_of_ne m ρ c main_arg4 (by decide)).trans ?_
  show StableHlo.after hostOps1 (W1 m ρ c) (Proc.devRef .tc main_arg4) = _
  after_results
  exact W1_kept m ρ c main_arg4 (by decide)

/-- The sequence neighbours are as launched after the second region. -/
theorem W3_arg5 (c : Dev nD) : W3 m ρ c (Proc.devRef .tc main_arg5) = m ((c : Thread nD τ).loc main_arg5) := by
  refine (W3_of_ne m ρ c main_arg5 (by decide)).trans ?_
  show StableHlo.after hostOps1 (W1 m ρ c) (Proc.devRef .tc main_arg5) = _
  after_results
  exact W1_kept m ρ c main_arg5 (by decide)

/-- The sequence weights are as launched after the second region. -/
theorem W3_arg11 (c : Dev nD) : W3 m ρ c (Proc.devRef .tc main_arg11) = m ((c : Thread nD τ).loc main_arg11) := by
  refine (W3_of_ne m ρ c main_arg11 (by decide)).trans ?_
  show StableHlo.after hostOps1 (W1 m ρ c) (Proc.devRef .tc main_arg11) = _
  after_results
  exact W1_kept m ρ c main_arg11 (by decide)

/-- The second weight matrix is as launched after the second region. -/
theorem W3_arg12 (c : Dev nD) : W3 m ρ c (Proc.devRef .tc main_arg12) = m ((c : Thread nD τ).loc main_arg12) := by
  refine (W3_of_ne m ρ c main_arg12 (by decide)).trans ?_
  show StableHlo.after hostOps1 (W1 m ρ c) (Proc.devRef .tc main_arg12) = _
  after_results
  exact W1_kept m ρ c main_arg12 (by decide)

/-- The second bias is as launched after the second region. -/
theorem W3_arg13 (c : Dev nD) : W3 m ρ c (Proc.devRef .tc main_arg13) = m ((c : Thread nD τ).loc main_arg13) := by
  refine (W3_of_ne m ρ c main_arg13 (by decide)).trans ?_
  show StableHlo.after hostOps1 (W1 m ρ c) (Proc.devRef .tc main_arg13) = _
  after_results
  exact W1_kept m ρ c main_arg13 (by decide)

/-- The third weight matrix is as launched after the second region. -/
theorem W3_arg14 (c : Dev nD) : W3 m ρ c (Proc.devRef .tc main_arg14) = m ((c : Thread nD τ).loc main_arg14) := by
  refine (W3_of_ne m ρ c main_arg14 (by decide)).trans ?_
  show StableHlo.after hostOps1 (W1 m ρ c) (Proc.devRef .tc main_arg14) = _
  after_results
  exact W1_kept m ρ c main_arg14 (by decide)

/-- The third bias is as launched after the second region. -/
theorem W3_arg15 (c : Dev nD) : W3 m ρ c (Proc.devRef .tc main_arg15) = m ((c : Thread nD τ).loc main_arg15) := by
  refine (W3_of_ne m ρ c main_arg15 (by decide)).trans ?_
  show StableHlo.after hostOps1 (W1 m ρ c) (Proc.devRef .tc main_arg15) = _
  after_results
  exact W1_kept m ρ c main_arg15 (by decide)

/-! ## After the second host stretch -/

set_option maxHeartbeats 16000000 in
/-- The aggregated features h2 = scatter-add of the messages by target node + the sequence convolution of h are the
    reference's. -/
theorem V4_h2 (c : Dev nD) :
    V4 m ρ c main_v68 = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W3 m ρ c) (Proc.devRef .tc main_v68) = _
  after_results_simp
  rw [W3_msgs, W3_dst, W3_h, W3_arg4, W3_arg5, W3_arg11]
  rfl

/-- The second weight matrix reaches the third region as launched. -/
theorem V4_arg12 (c : Dev nD) : V4 m ρ c main_arg12 = m ((c : Thread nD τ).loc main_arg12) := by
  show StableHlo.after hostOps2 (W3 m ρ c) (Proc.devRef .tc main_arg12) = _
  after_results_simp
  exact W3_arg12 m ρ c

/-- The third weight matrix reaches the third region as launched. -/
theorem V4_arg14 (c : Dev nD) : V4 m ρ c main_arg14 = m ((c : Thread nD τ).loc main_arg14) := by
  show StableHlo.after hostOps2 (W3 m ρ c) (Proc.devRef .tc main_arg14) = _
  after_results_simp
  exact W3_arg14 m ρ c

/-- The second bias reaches the third region as one row. -/
theorem V4_c2 (c : Dev nD) :
    V4 m ρ c main_v69 = shapeCast S1x128 (m ((c : Thread nD τ).loc main_arg13)) shapeCasts_S128_S1x128 := by
  show StableHlo.after hostOps2 (W3 m ρ c) (Proc.devRef .tc main_v69) = _
  after_results_simp
  rw [W3_arg13]
  rfl

/-- The third bias reaches the third region as one row. -/
theorem V4_c3 (c : Dev nD) :
    V4 m ρ c main_v70 = shapeCast S1x128 (m ((c : Thread nD τ).loc main_arg15)) shapeCasts_S128_S1x128 := by
  show StableHlo.after hostOps2 (W3 m ρ c) (Proc.devRef .tc main_v70) = _
  after_results_simp
  rw [W3_arg15]
  rfl

/-! ## After the third region -/

/-- THE RESULT ARRAY after the run is the reference's result term of the sixteen argument arrays. -/
theorem result (c : Dev nD) :
    W5 m ρ c (Proc.devRef .tc main_v71) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W5_arr m ρ c 5).trans ((Cert.KernelIdeal.FinalizeRegion.final (V4 m ρ) c (m ((c : Thread nD τ).loc main_arg13)) (m ((c : Thread nD τ).loc main_arg15))
    (V4_c2 m ρ c) (V4_c3 m ρ c)).trans ?_)
  rw [V4_h2, V4_arg12, V4_arg14]
  exact Cert.Bridge.finalize_eq _ _ _ _ _ _ _ _ _ _ _ _ _ _ _ _

end Cert.KernelIdeal.Fold

end
-- ==== Proof.lean ====
/-
  A message-passing layer on a molecular graph: h = x . W1 on the nodes; per edge a filter row
  (tanh (attr . F1 + b1) . F2 + b2) scaled by the cosine cutoff of the edge's length and multiplied into the source
  node's row h[src]; the messages added up per target node; a sequence convolution of h added; and the tail
  tanh (h2 . W2 + c2) . W3 + c3. The kernel computes the three dense stages in three blocked regions (matrix-unit products
  of operands rounded to bf16, which is the identity on the extended reals) with the gathers and scatter-adds between
  them on the host; the reference computes the same stages as whole-array products and the same gathers and
  scatter-adds. Over the extended reals the two results are one term of the sixteen argument arrays:

  * each region's result array is its stage of the whole operand arrays, entry by entry, since its blocks tile the rows
    and a tile product into the zero accumulator is the same sum over the contracted axis as the whole product
    (Lin1Region, FilterRegion, FinalizeRegion); the only reordering is the messages' last product, and a product of
    extended reals commutes, so no finiteness of the inputs is used;
  * the host operations between the regions are the reference's own, operand for operand (KernelValue, Bridge);
  * the run with the result array named is the frame's launch read at one more buffer (KernelRun).

  The three frames are the generated ones (the reference's is its generated run with the result dropped); the ideal pass
  rewrote nothing, so the kernel's idealization is its own text read over the extended reals.
-/
import proofs.«164510_j31559419691086_1_alg».proof.Defs
import proofs.«164510_j31559419691086_1_alg».proof.Proof.Gen.Kernel
import proofs.«164510_j31559419691086_1_alg».proof.Proof.Gen.Kernel.Skeleton
import proofs.«164510_j31559419691086_1_alg».proof.Proof.Gen.Kernel.Launch
import proofs.«164510_j31559419691086_1_alg».proof.Proof.Gen.Kernel.Points
import proofs.«164510_j31559419691086_1_alg».proof.Proof.Gen.Kernel.Frame
import proofs.«164510_j31559419691086_1_alg».proof.Proof.Gen.KernelIdeal
import proofs.«164510_j31559419691086_1_alg».proof.Proof.Gen.KernelIdeal.Skeleton
import proofs.«164510_j31559419691086_1_alg».proof.Proof.Gen.KernelIdeal.Launch
import proofs.«164510_j31559419691086_1_alg».proof.Proof.Gen.KernelIdeal.Points
import proofs.«164510_j31559419691086_1_alg».proof.Proof.Gen.KernelIdeal.Frame
import proofs.«164510_j31559419691086_1_alg».proof.Proof.Gen.ReferenceIdeal
import proofs.«164510_j31559419691086_1_alg».proof.Proof.Gen.ReferenceIdeal.Run
import proofs.«164510_j31559419691086_1_alg».proof.Proof.Gen.ReferenceIdeal.Read
import proofs.«164510_j31559419691086_1_alg».proof.Proof.Gen.Pre_finite_inputs
import proofs.«164510_j31559419691086_1_alg».proof.Proof.KernelRun
import proofs.«164510_j31559419691086_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at the reference's result term of the kernel's argument arrays: the kernel
    by the fold through its segments, the reference by its run, its arguments agreeing with the kernel's. -/
theorem algebraic : Cert.algebraic_KernelIdeal_ReferenceIdeal := by
  intro m ρ m' ρ' _ hagree
  refine ⟨fun c => Cert.ReferenceIdeal.Read.val_main_v99 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.Fold.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v99_eq, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
